-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S500x256 : Shape := ⟨2, ![500, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S500x256 : S_.BroadcastsInDim S500x256 (![] : Fin 0 → Fin S500x256.rank)
  reducesTo_S500x256_S_d0_1 : S500x256.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S131072x256 .f32) (main_arg1 : IVec S131072 32) (main_arg2 : FVec F S500x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S500x256 .f32 := Host.absf main_arg2
  let main_cst_0 : FVec F S_ .f32 := constant S_ .f32 0x7F800000#32
  let main_v5 : FVec F S500x256 .f32 := broadcastInDim S500x256 ![] bcast_S_S500x256 main_cst_0
  let main_v6 : IVec S500x256 1 := cmpf .olt main_v4 main_v5
  let main_c_1 : IVec S_ 1 := constantI S_ 1 1#1
  let main_v7 : IVec S_ 1 := (fun x v => Host.reduce IntOp.andi x v reducesTo_S500x256_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 1 := constantI S_ 1 1#1
  let main_v11 : IVec S_ 1 := (fun x v => Host.reduce IntOp.andi x v reducesTo_S131072_S_d0 h_S_) main_v10 main_c_3
  let main_v12 : IVec S_ 1 := andi main_v8 main_v11
  let main_c_4 : IVec S_ 32 := constantI S_ 32 500#32
  let main_v13 : IVec S131072 32 := broadcastInDim S131072 ![] bcast_S_S131072 main_c_4
  let main_v14 : IVec S131072 1 := cmpi .slt main_arg1 main_v13
  let main_c_5 : IVec S_ 1 := constantI S_ 1 1#1
  let main_v15 : IVec S_ 1 := (fun x v => Host.reduce IntOp.andi x v reducesTo_S131072_S_d0 h_S_) main_v14 main_c_5
  fn_part1 (F := F) main_v12 main_v15
-- ==== Kernel.lean ====
abbrev S131072x256 : Shape := ⟨2, ![131072, 256]⟩
abbrev S131072 : Shape := ⟨1, ![131072]⟩
abbrev S500x256 : Shape := ⟨2, ![500, 256]⟩
abbrev S_ : Shape := ⟨0, ![]⟩
abbrev S512x256 : Shape := ⟨2, ![512, 256]⟩
abbrev S1 : Shape := ⟨1, ![1]⟩
abbrev S512 : Shape := ⟨1, ![512]⟩
abbrev S512x1 : Shape := ⟨2, ![512, 1]⟩
abbrev S1x512 : Shape := ⟨2, ![1, 512]⟩
abbrev S131072x1 : Shape := ⟨2, ![131072, 1]⟩
abbrev S64x8x128 : Shape := ⟨3, ![64, 8, 128]⟩
abbrev S2048x256 : Shape := ⟨2, ![2048, 256]⟩
abbrev S2048x1 : Shape := ⟨2, ![2048, 1]⟩
abbrev S1x8x128 : Shape := ⟨3, ![1, 8, 128]⟩
abbrev S2048 : Shape := ⟨1, ![2048]⟩
abbrev S256x512 : Shape := ⟨2, ![256, 512]⟩
abbrev S2048x512 : Shape := ⟨2, ![2048, 512]⟩
abbrev S1x2048x1 : Shape := ⟨3, ![1, 2048, 1]⟩
abbrev S1x1x1 : Shape := ⟨3, ![1, 1, 1]⟩
abbrev S8x128 : Shape := ⟨2, ![8, 128]⟩
abbrev S64x1x1 : Shape := ⟨3, ![64, 1, 1]⟩
abbrev S64 : Shape := ⟨1, ![64]⟩

abbrev nBuf : Space → Nat
  | .hbm => 41
  | .vmem => 12
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S500x256, .f32⟩
  | .hbm, ⟨3, _⟩ => ⟨S_, .f32⟩
  | .hbm, ⟨4, _⟩ => ⟨S512x256, .f32⟩
  | .hbm, ⟨5, _⟩ => ⟨S_, .i32⟩
  | .hbm, ⟨6, _⟩ => ⟨S1, .i32⟩
  | .hbm, ⟨7, _⟩ => ⟨S512x256, .f32⟩
  | .hbm, ⟨8, _⟩ => ⟨S512x256, .bf16⟩
  | .hbm, ⟨9, _⟩ => ⟨S512x256, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S1x512, .f32⟩
  | .hbm, ⟨14, _⟩ => ⟨S_, .i32⟩
  | .hbm, ⟨15, _⟩ => ⟨S131072, .i32⟩
  | .hbm, ⟨16, _⟩ => ⟨S131072, .i1⟩
  | .hbm, ⟨17, _⟩ => ⟨S_, .i32⟩
  | .hbm, ⟨18, _⟩ => ⟨S131072, .i32⟩
  | .hbm, ⟨19, _⟩ => ⟨S131072, .i32⟩
  | .hbm, ⟨20, _⟩ => ⟨S131072, .i32⟩
  | .hbm, ⟨21, _⟩ => ⟨S131072x1, .i32⟩
  | .hbm, ⟨22, _⟩ => ⟨S131072x256, .f32⟩
  | .hbm, ⟨23, _⟩ => ⟨S131072x1, .i32⟩
  | .hbm, ⟨24, _⟩ => ⟨S64x8x128, .f32⟩
  | .hbm, ⟨25, _⟩ => ⟨S64x8x128, .f32⟩
  | .hbm, ⟨26, _⟩ => ⟨S64x1x1, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S64x1x1, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S512x256, .bf16⟩
  | .local _ .vmem, ⟨3, _⟩ => ⟨S1x512, .f32⟩
  | .local _ .vmem, ⟨4, _⟩ => ⟨S2048x256, .f32⟩
  | .local _ .vmem, ⟨5, _⟩ => ⟨S2048x256, .f32⟩
  | .local _ .vmem, ⟨6, _⟩ => ⟨S2048x1, .i32⟩
  | .local _ .vmem, ⟨7, _⟩ => ⟨S2048x1, .i32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S512x256 : S_.BroadcastsInDim S512x256 (![] : Fin 0 → Fin S512x256.rank)
  bcast_S_S1 : S_.BroadcastsInDim S1 (![] : Fin 0 → Fin S1.rank)
  bitsLt_bf16_f32 : FTy.bits .bf16 < FTy.bits .f32
  reducesTo_S512x256_S512_d1 : S512x256.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S131072x1 : S131072.ShapeCasts S131072x1
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x256_S2048 : S2048x256.Reduces [1] S2048
  shapeCasts_S2048_S2048x1 : S2048.ShapeCasts S2048x1
  transposes_S512x256_p1_0_S256x512 : S512x256.Transposes [1, 0] S256x512
  broadcasts_S2048x1_S2048x512 : S2048x1.Broadcasts S2048x512
  broadcasts_S1x512_S2048x512 : S1x512.Broadcasts S2048x512
  iota_S2048x512_d1_w32 : S2048x512.Iotas .tc 32 [1]
  reduces_S2048x512_S2048 : S2048x512.Reduces [1] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S64x8x128_S64x1x1_0_0_0 : S64x8x128.Slices ![0, 0, 0] S64x1x1
  shapeCasts_S64x1x1_S64 : S64x1x1.ShapeCasts S64
  reducesTo_S64_S_d0 : S64.ReducesTo [0] S_
  scatter_S512x256_S1_S500x256_01_n_0_0_wf : ScatterDims.WF S512x256 S1 S500x256 [0, 1] [] [0] 0
  gather_S500x256_S131072x1_S131072x256_1_0_n_n_0_1_1256_wf : GatherDims.WF S500x256 S131072x1 S131072x256 [1] [0] [] [0] [] 1 ![1, 256]
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S131072x256.size a
  hwx0_3 : ∀ i : grid0.Coords, EltTy.bits .f32 = 32 ∨ (Rect.block (s := S131072x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S131072x1.size a
  hwx0_4 : ∀ i : grid0.Coords, EltTy.bits .i32 = 32 ∨ (Rect.block (s := S131072x1) S2048x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S64x8x128.size a
  hwx0_5 : ∀ i : grid0.Coords, EltTy.bits .f32 = 32 ∨ (Rect.block (s := S64x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S64x8x128.size a
  hwx0_6 : ∀ i : grid0.Coords, EltTy.bits .f32 = 32 ∨ (Rect.block (s := S64x8x128) S1x8x128.size (cc0_transform_6 i) (hinb0_6 i)).WholeWords (EltTy.packing .f32)

variable [Facts₀]

def scatter_S512x256_S1_S500x256_01_n_0_0 : ScatterDims S512x256 S1 S500x256 where
  updateWindowDims := [0, 1]
  insertedWindowDims := []
  scatterDimsToOperandDims := [0]
  indexVectorDim := 0
  wf := scatter_S512x256_S1_S500x256_01_n_0_0_wf
def gather_S500x256_S131072x1_S131072x256_1_0_n_n_0_1_1256 : GatherDims S500x256 S131072x1 S131072x256 where
  offsetDims := [1]
  collapsedSliceDims := [0]
  operandBatchingDims := []
  startIndicesBatchingDims := []
  startIndexMap := [0]
  indexVectorDim := 1
  sliceSizes := ![1, 256]
  wf := gather_S500x256_S131072x1_S131072x256_1_0_n_n_0_1_1256_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S500x256 : Shape := ⟨2, ![500, 256]⟩
abbrev S_ : Shape := ⟨0, ![]⟩
abbrev S131072x1 : Shape := ⟨2, ![131072, 1]⟩
abbrev S500 : Shape := ⟨1, ![500]⟩
abbrev S256x500 : Shape := ⟨2, ![256, 500]⟩
abbrev S131072x500 : Shape := ⟨2, ![131072, 500]⟩
abbrev S1x500 : Shape := ⟨2, ![1, 500]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S500x256, .f32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S_, .f32⟩
  | .hbm, ⟨15, _⟩ => ⟨S131072, .f32⟩
  | .hbm, ⟨16, _⟩ => ⟨S131072, .f32⟩
  | .hbm, ⟨17, _⟩ => ⟨S131072x256, .f32⟩
  | .hbm, ⟨18, _⟩ => ⟨S_, .f32⟩
  | .hbm, ⟨19, _⟩ => ⟨S131072, .f32⟩
  | .hbm, ⟨20, _⟩ => ⟨S500x256, .f32⟩
  | .hbm, ⟨21, _⟩ => ⟨S_, .f32⟩
  | .hbm, ⟨22, _⟩ => ⟨S500, .f32⟩
  | .hbm, ⟨23, _⟩ => ⟨S256x500, .f32⟩
  | .hbm, ⟨24, _⟩ => ⟨S131072x500, .f32⟩
  | .hbm, ⟨25, _⟩ => ⟨S131072x1, .f32⟩
  | .hbm, ⟨26, _⟩ => ⟨S1x500, .f32⟩
  | .hbm, ⟨27, _⟩ => ⟨S131072x500, .f32⟩
  | .hbm, ⟨28, _⟩ => ⟨S131072x500, .f32⟩
  | .hbm, ⟨29, _⟩ => ⟨S131072x500, .f32⟩
  | .hbm, ⟨30, _⟩ => ⟨S_, .f32⟩
  | .hbm, ⟨31, _⟩ => ⟨S131072x500, .f32⟩
  | .hbm, ⟨32, _⟩ => ⟨S131072x500, .f32⟩
  | .hbm, ⟨33, _⟩ => ⟨S131072x500, .f32⟩
  | .hbm, ⟨34, _⟩ => ⟨S_, .f32⟩
  | .hbm, ⟨35, _⟩ => ⟨S131072x500, .f32⟩
  | .hbm, ⟨36, _⟩ => ⟨S131072x500, .f32⟩
  | .hbm, ⟨37, _⟩ => ⟨S131072x500, .f32⟩
  | .hbm, ⟨38, _⟩ => ⟨S131072x1, .i32⟩
  | .hbm, ⟨39, _⟩ => ⟨S_, .i32⟩
  | .hbm, ⟨40, _⟩ => ⟨S131072x1, .i32⟩
  | .hbm, ⟨41, _⟩ => ⟨S131072x1, .i1⟩
  | .hbm, ⟨42, _⟩ => ⟨S_, .i32⟩
  | .hbm, ⟨43, _⟩ => ⟨S131072x1, .i32⟩
  | .hbm, ⟨44, _⟩ => ⟨S131072x1, .i32⟩
  | .hbm, ⟨45, _⟩ => ⟨S131072x1, .i32⟩
  | .hbm, ⟨46, _⟩ => ⟨S131072x1x1, .i32⟩
  | .hbm, ⟨47, _⟩ => ⟨S1, .i32⟩
  | .hbm, ⟨48, _⟩ => ⟨S_, .i32⟩
  | .hbm, ⟨49, _⟩ => ⟨S131072x1x1, .i32⟩
  | .hbm, ⟨50, _⟩ => ⟨S131072x1x1, .i1⟩
  | .hbm, ⟨51, _⟩ => ⟨S1x1x1, .i32⟩
  | .hbm, ⟨52, _⟩ => ⟨S131072x1x1, .i32⟩
  | .hbm, ⟨53, _⟩ => ⟨S131072x1x1, .i1⟩
  | .hbm, ⟨54, _⟩ => ⟨S131072x1x1, .i1⟩
  | .hbm, ⟨55, _⟩ => ⟨S_, .i1⟩
  | .hbm, ⟨56, _⟩ => ⟨S131072x1, .i1⟩
  | .hbm, ⟨57, _⟩ => ⟨S131072x1, .f32⟩
  | .hbm, ⟨58, _⟩ => ⟨S_, .f32⟩
  | .hbm, ⟨59, _⟩ => ⟨S131072x1, .f32⟩
  | .hbm, ⟨60, _⟩ => ⟨S131072x1, .f32⟩
  | .hbm, ⟨61, _⟩ => ⟨S131072, .f32⟩
  | .hbm, ⟨62, _⟩ => ⟨S_, .f32⟩
  | .hbm, ⟨63, _⟩ => ⟨S131072, .f32⟩
  | .hbm, ⟨64, _⟩ => ⟨S131072, .f32⟩
  | .hbm, ⟨65, _⟩ => ⟨S_, .f32⟩
  | .hbm, ⟨66, _⟩ => ⟨S131072, .f32⟩
  | .hbm, ⟨67, _⟩ => ⟨S131072, .f32⟩
  | .hbm, ⟨68, _⟩ => ⟨S131072, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_cst_10 : Ref sig .tc := ⟨.hbm, 77, rfl⟩
abbrev main_v38 : Ref sig .tc := ⟨.hbm, 78, rfl⟩
abbrev main_v39 : Ref sig .tc := ⟨.hbm, 79, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x256_S131072_d1 : S131072x256.ReducesTo [1] S131072
  h_S_ : 0 < S_.numel
  reducesTo_S500x256_S500_d1 : S500x256.ReducesTo [1] S500
  transposes_S500x256_S256x500_1_0 : S500x256.Transposes [1, 0] S256x500
  bcast_S500_S1x500_1 : S500.BroadcastsInDim S1x500 (![1] : Fin 1 → Fin S1x500.rank)
  bcast_S131072x1_S131072x500_0_1 : S131072x1.BroadcastsInDim S131072x500 (![0, 1] : Fin 2 → Fin S131072x500.rank)
  bcast_S1x500_S131072x500_0_1 : S1x500.BroadcastsInDim S131072x500 (![0, 1] : Fin 2 → Fin S131072x500.rank)
  bcast_S_S131072x500 : S_.BroadcastsInDim S131072x500 (![] : Fin 0 → Fin S131072x500.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  shapeCasts_S131072x1_S131072 : S131072x1.ShapeCasts S131072
  reducesTo_S131072x500_S131072_d1 : S131072x500.ReducesTo [1] S131072
  reducesTo_S131072_S_d0 : S131072.ReducesTo [0] S_
  gather_S500x256_S131072x1_S131072x256_1_0_n_n_0_1_1256_wf : GatherDims.WF S500x256 S131072x1 S131072x256 [1] [0] [] [0] [] 1 ![1, 256]
  dot_S131072x256_S256x500_S131072x500_1_0_0_1_n_n_wf : DotDims.WF S131072x256 S256x500 S131072x500 [1] [0] [0] [1] [] []
  gather_S131072x500_S131072x1x1_S131072x1_n_1_0_0_1_2_11_wf : GatherDims.WF S131072x500 S131072x1x1 S131072x1 [] [1] [0] [1] [0] 2 ![1, 1]

variable [Facts₀]

def gather_S500x256_S131072x1_S131072x256_1_0_n_n_0_1_1256 : GatherDims S500x256 S131072x1 S131072x256 where
  offsetDims := [1]
  collapsedSliceDims := [0]
  operandBatchingDims := []
  startIndicesBatchingDims := []
  startIndexMap := [0]
  indexVectorDim := 1
  sliceSizes := ![1, 256]
  wf := gather_S500x256_S131072x1_S131072x256_1_0_n_n_0_1_1256_wf
def dot_S131072x256_S256x500_S131072x500_1_0_0_1_n_n : DotDims S131072x256 S256x500 S131072x500 where
  lhsContracting := [1]
  rhsContracting := [0]
  lhsNonContracting := [0]
  rhsNonContracting := [1]
  lhsBatch := []
  rhsBatch := []
  wf := dot_S131072x256_S256x500_S131072x500_1_0_0_1_n_n_wf
def gather_S131072x500_S131072x1x1_S131072x1_n_1_0_0_1_2_11 : GatherDims S131072x500 S131072x1x1 S131072x1 where
  offsetDims := []
  collapsedSliceDims := [1]
  operandBatchingDims := [0]
  startIndicesBatchingDims := [0]
  startIndexMap := [1]
  indexVectorDim := 2
  sliceSizes := ![1, 1]
  wf := gather_S131072x500_S131072x1x1_S131072x1_n_1_0_0_1_2_11_wf

class Facts : Prop extends Facts₀ where

variable [Facts]
-- ==== Proof.Spec.lean ====
/-
  The two loss formulas, as functions of rows.

  A sample is a row of 256 features with a class label; a class is a row of 256 numbers, its centre. The loss is the mean,
  over the samples, of (distance to the own centre) / (mean distance to the 499 other centres), plus a tenth of the mean
  distance to the own centre. The distance to the own centre is taken directly, the square root of the sum of squared
  differences; the distances to all centres are taken through the expansion |x|² + |c|² − 2⟨x, c⟩, floored at a small
  constant before the square root.

  One program adds up, over all class columns but the own one, the distances of a row (it tests every column against the
  label, over a table of centres padded to 512 rows of which the first 500 count); the other adds up all 500 and takes
  the own one away again. One program sums the samples tile by tile, 64 tiles of 2048, the other all at once.
  Everything is on the extended reals: a float is an exact extended real, and the float constants are kept as the
  values of their bit patterns.
-/
import Idealize.ShloMosaic.PureOps.Ideal
import Idealize.ShloMosaic.PureOps.Ideal.Laws
import Idealize.ShloMosaic.Lib.ValueIdx

open scoped BigOperators

noncomputable section

namespace Cert.Spec

open Idealize.ShloMosaic

/-- The constant 2 of the expansion. -/
abbrev two : EReal := Ideal.ofBits .f32 0x40000000#32
/-- The floor under the squared distance. -/
abbrev eps : EReal := Ideal.ofBits .f32 0x2B8CBCCC#32
/-- The number of other classes, 499. -/
abbrev nOthers : EReal := Ideal.ofBits .f32 0x43F98000#32
/-- The number of samples, 131072. -/
abbrev nSamples : EReal := Ideal.ofBits .f32 0x48000000#32
/-- The weight of the second term, the float nearest a tenth. -/
abbrev weight : EReal := Ideal.ofBits .f32 0x3DCCCCCD#32

/-- The squared length of row `r`. -/
def sq {R : ℕ} (x : Fin R → Fin 256 → EReal) (r : Fin R) : EReal := ∑ d : Fin 256, x r d * x r d

/-- The inner product of row `r` of `x` and row `j` of `c`. -/
def dot {R C : ℕ} (x : Fin R → Fin 256 → EReal) (c : Fin C → Fin 256 → EReal) (r : Fin R) (j : Fin C) : EReal :=
  ∑ d : Fin 256, x r d * c j d

/-- The distance of row `r` of `x` to row `r` of `cb` (the row's own centre), taken directly. -/
def own {R : ℕ} (x cb : Fin R → Fin 256 → EReal) (r : Fin R) : EReal :=
  Ideal.sqrt (∑ d : Fin 256, (x r d - cb r d) * (x r d - cb r d))

/-- The distance of row `r` of `x` to centre `j` through the expansion, `c2 j` standing for the centre's squared length. -/
def dist {R C : ℕ} (x : Fin R → Fin 256 → EReal) (c : Fin C → Fin 256 → EReal) (c2 : Fin C → EReal) (r : Fin R) (j : Fin C) :
    EReal :=
  Ideal.sqrt (max ((sq x r + c2 j) - two * dot x c r j) eps)

/-! ## One tile of the first program: 2048 rows against a table of 512 centres -/

/-- The distances of row `r` added over the columns below 500 whose number is not the row's label word. -/
def othersMasked (x : Fin 2048 → Fin 256 → EReal) (c : Fin 512 → Fin 256 → EReal) (c2 : Fin 512 → EReal)
    (lab : Fin 2048 → BitVec 32) (r : Fin 2048) : EReal :=
  ∑ j : Fin 512, if j.val < 500 ∧ BitVec.ofNat 32 j.val ≠ lab r then dist x c c2 r j else 0

/-- The tile's sum of own distances. -/
def tileOwn (x cb : Fin 2048 → Fin 256 → EReal) : EReal := ∑ r : Fin 2048, own x cb r

/-- The tile's sum of ratios. -/
def tileRatio (x cb : Fin 2048 → Fin 256 → EReal) (c : Fin 512 → Fin 256 → EReal) (c2 : Fin 512 → EReal)
    (lab : Fin 2048 → BitVec 32) : EReal :=
  ∑ r : Fin 2048, Ideal.div (own x cb r) (Ideal.div (othersMasked x c c2 lab r) nOthers)

/-! ## The loss from the two totals -/

/-- Mean ratio plus the weighted mean own distance, from the two sums over the samples. -/
def lossOf (sumRatio sumOwn : EReal) : EReal :=
  Ideal.div sumRatio nSamples + weight * Ideal.div sumOwn nSamples

/-! ## The second program: all 131072 rows against the 500 centres, the label a class number `k r` -/

/-- The distances of row `r` to all 500 centres added, less the one to its own. -/
def othersBySubtraction (x : Fin 131072 → Fin 256 → EReal) (c : Fin 500 → Fin 256 → EReal) (k : Fin 131072 → Fin 500)
    (r : Fin 131072) : EReal :=
  (∑ j : Fin 500, dist x c (sq c) r j) - dist x c (sq c) r (k r)

/-- The ratio of row `r`. -/
def ratioBySubtraction (x : Fin 131072 → Fin 256 → EReal) (c : Fin 500 → Fin 256 → EReal) (k : Fin 131072 → Fin 500)
    (r : Fin 131072) : EReal :=
  Ideal.div (own x (fun i => c (k i)) r) (Ideal.div (othersBySubtraction x c k r) nOthers)

/-- The loss as the second program computes it. -/
def lossBySubtraction (x : Fin 131072 → Fin 256 → EReal) (c : Fin 500 → Fin 256 → EReal) (k : Fin 131072 → Fin 500) : EReal :=
  lossOf (∑ r : Fin 131072, ratioBySubtraction x c k r) (∑ r : Fin 131072, own x (fun i => c (k i)) r)

/-! ## Arrays as rows -/

/-- A rank-2 array read as rows. -/
abbrev rows {R D : ℕ} (a : (⟨2, ![R, D]⟩ : Shape).Idx → EReal) : Fin R → Fin D → EReal := fun r d => a (ValueIdx.ix2 r d)

end Cert.Spec

end
-- ==== Proof.LibGather.lean ====
/-
  A gather of whole rows, a gather of one entry per row, and a scatter that writes a block at the origin, each read at
  an index.

  `table[idx]` over a table of rows takes, for result row `r`, the table's row whose number is the start index of `r`,
  read as a signed integer and clamped into the table. Taking one entry per row along the second axis
  (`take_along_axis`) reads, in row `r`, the column whose number is the start index of `r`, clamped likewise. Setting the
  leading rows of an array to an update (`zeros.at[:n].set(u)`) is a scatter with one index vector, the zero vector: every
  element of the update lands at its own coordinates, and the rows below the update keep what was there.
-/
import Idealize.ShloMosaic.PureOps.ShapeOps
import Idealize.ShloMosaic.PureOps.Dims
import Idealize.ShloMosaic.Lib.ValueIdx

namespace Cert.LibGather

open Idealize.ShloMosaic Idealize.ShloMosaic.ValueIdx

variable {α : Type}

/-! ## Rows of a table -/

/-- The dimension numbers of `table[idx]` for a table `[N, D]`, start indices `[R, 1]` and result `[R, D]`. -/
abbrev rowsDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Result entry `(r, e)` is the table's entry `e` in the row the start index of `r` names, clamped into `[0, N − 1]`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (e : Fin D) :
    Host.gather (rowsDims N D R wf) x idx (ix2 r e)
      = x (ix2 ⟨min (idx (ix2 r 0)).toInt.toNat (N - 1), by omega⟩ e) := by
  -- axis 0 carries the clamped start index alone: no batching axis, and a collapsed axis has no offset coordinate
  have h0 : (rowsDims N D R wf).start (ix2 r e) idx (0 : Fin 2) + (rowsDims N D R wf).batchCoord (ix2 r e) (0 : Fin 2)
      + (rowsDims N D R wf).offCoord (ix2 r e) (0 : Fin 2) = min (idx (ix2 r 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R wf).startIndexMap from List.mem_singleton.mpr rfl)]
    -- the start index of result row `r` is read at `[r, 0]`
    have hsi : (rowsDims N D R wf).siIdx (ix2 r e) ⟨List.idxOf (0 : Fin 2) (rowsDims N D R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  -- axis 1 is the one offset axis: start 0, no batching coordinate, and the offset is the result's column
  have h1 : (rowsDims N D R wf).start (ix2 r e) idx (1 : Fin 2) + (rowsDims N D R wf).batchCoord (ix2 r e) (1 : Fin 2)
      + (rowsDims N D R wf).offCoord (ix2 r e) (1 : Fin 2) = e.val := by
    rw [GatherDims.batchCoord_eq_zero _ _ _ List.not_mem_nil]
    unfold GatherDims.start
    rw [dif_neg (show (1 : Fin 2) ∉ ([0] : List (Fin 2)) by decide)]
    simp only [Nat.add_zero, Nat.zero_add]
    rfl
  unfold Host.gather
  congr 1
  funext a
  refine Fin.ext ?_
  match a with
  | ⟨0, _⟩ => exact h0
  | ⟨1, _⟩ => exact h1

/-! ## One entry per row -/

/-- The dimension numbers of `take_along_axis(a, idx, axis=1)` for `a : [R, N]`, start indices `[R, 1, 1]`, result `[R, 1]`. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Result entry `(r, 0)` is row `r`'s entry in the column the start index of `r` names, clamped into `[0, N − 1]`. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r 0)
      = x (ix2 r ⟨min (idx (ix3 r 0 0)).toInt.toNat (N - 1), by omega⟩) := by
  -- axis 0 is the batching axis: start 0, no offset, and the batching coordinate is the result's row
  have h0 : (alongDims R N wf).start (ix2 r 0) idx (0 : Fin 2) + (alongDims R N wf).batchCoord (ix2 r 0) (0 : Fin 2)
      + (alongDims R N wf).offCoord (ix2 r 0) (0 : Fin 2) = r.val := by
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  -- axis 1 carries the clamped start index alone: it is collapsed and not a batching axis
  have h1 : (alongDims R N wf).start (ix2 r 0) idx (1 : Fin 2) + (alongDims R N wf).batchCoord (ix2 r 0) (1 : Fin 2)
      + (alongDims R N wf).offCoord (ix2 r 0) (1 : Fin 2) = min (idx (ix3 r 0 0)).toInt.toNat (N - 1) := by
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index of result entry `(r, 0)` is read at `[r, 0, 0]`
    have hsi : (alongDims R N wf).siIdx (ix2 r 0) ⟨List.idxOf (1 : Fin 2) (alongDims R N wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact h0
  | ⟨1, _⟩ => exact h1

/-! ## A block written at the origin -/

/-- The dimension numbers of `x.at[:n].set(u)` for `x : [M, D]`, one index vector of one component, `u : [n, D]`. -/
abbrev headDims (M D n : Nat) (wf : ScatterDims.WF ⟨2, ![M, D]⟩ ⟨1, ![1]⟩ ⟨2, ![n, D]⟩ [0, 1] [] [0] 0) :
    ScatterDims ⟨2, ![M, D]⟩ ⟨1, ![1]⟩ ⟨2, ![n, D]⟩ where
  updateWindowDims := [0, 1]
  insertedWindowDims := []
  scatterDimsToOperandDims := [0]
  indexVectorDim := 0
  wf := wf

/-- A left fold of overwriting steps, read at one position: if step `n` overwrites position `g n` by `upd n` (and leaves
    everything when `g n` is nothing), every step of the list that hits position `i'` writes `v` there, and either the
    start holds `v` at `i'` or some step of the list hits `i'`, then the fold holds `v` at `i'`. -/
theorem foldl_overwrite_apply {ι κ β : Type} (g : ι → Option κ) (upd : ι → β)
    (step : (κ → β) → ι → (κ → β)) (i' : κ) (v : β)
    (hsome : ∀ r n i, g n = some i → step r n i = upd n ∧ ∀ k, k ≠ i → step r n k = r k)
    (hnone : ∀ r n, g n = none → step r n = r) :
    ∀ (l : List ι) (x : κ → β), (∀ n ∈ l, g n = some i' → upd n = v) → (x i' = v ∨ ∃ n ∈ l, g n = some i') →
      l.foldl step x i' = v := by
  intro l
  induction l with
  | nil =>
    intro x _ h
    rcases h with h | ⟨n, hn, _⟩
    · exact h
    · exact absurd hn List.not_mem_nil
  | cons n l ih =>
    intro x hall h
    rw [List.foldl_cons]
    -- after the first step the alternative still holds: either that step wrote `v` at `i'`, or it left `i'` alone
    refine ih (step x n) (fun m hm => hall m (List.mem_cons_of_mem _ hm)) ?_
    cases hg : g n with
    | none =>
      rw [hnone x n hg]
      rcases h with h | ⟨m, hm, hgm⟩
      · exact Or.inl h
      · rcases List.mem_cons.1 hm with rfl | hm
        · rw [hg] at hgm; exact absurd hgm (by simp)
        · exact Or.inr ⟨m, hm, hgm⟩
    | some i =>
      obtain ⟨hat, hoff⟩ := hsome x n i hg
      by_cases hi : i' = i
      · subst hi
        exact Or.inl (hat.trans (hall n List.mem_cons_self hg))
      · rw [hoff i' hi]
        rcases h with h | ⟨m, hm, hgm⟩
        · exact Or.inl h
        · rcases List.mem_cons.1 hm with rfl | hm
          · rw [hg] at hgm; exact absurd (Option.some.inj hgm).symm hi
          · exact Or.inr ⟨m, hm, hgm⟩

/-- With the index vector zero, the update's element `(p, q)` lands at the operand's `(p, q)`: the window starts at the
    origin on both axes, the window coordinates are the update's own, and `p < n ≤ M` keeps the row inside. -/
theorem head_resultIdx {M D n w : Nat} (hn : n ≤ M)
    (wf : ScatterDims.WF ⟨2, ![M, D]⟩ ⟨1, ![1]⟩ ⟨2, ![n, D]⟩ [0, 1] [] [0] 0)
    (idx : IVec ⟨1, ![1]⟩ w) (hidx : ∀ i, (idx i).toInt = 0) (p : Fin n) (q : Fin D) :
    (headDims M D n wf).resultIdx? (ix2 p q) idx = some (ix2 ⟨p.val, by omega⟩ q) := by
  -- the start is 0 on both axes: the index word on the scattered axis, nothing on the other
  have hstart : ∀ a, (headDims M D n wf).start (ix2 p q) idx a = 0 := by
    intro a
    unfold ScatterDims.start
    split
    · exact hidx _
    · rfl
  -- no axis is inserted, so the window coordinate on each axis is the update's coordinate there
  have hw0 : (headDims M D n wf).window (ix2 p q) (0 : Fin 2) = p.val := rfl
  have hw1 : (headDims M D n wf).window (ix2 p q) (1 : Fin 2) = q.val := rfl
  have hb0 : 0 ≤ (headDims M D n wf).start (ix2 p q) idx (0 : Fin 2) + ((headDims M D n wf).window (ix2 p q) (0 : Fin 2) : Int) ∧
      (headDims M D n wf).start (ix2 p q) idx (0 : Fin 2) + ((headDims M D n wf).window (ix2 p q) (0 : Fin 2) : Int) < (M : Int) := by
    have hp := p.isLt
    rw [hstart, hw0]; omega
  have hb1 : 0 ≤ (headDims M D n wf).start (ix2 p q) idx (1 : Fin 2) + ((headDims M D n wf).window (ix2 p q) (1 : Fin 2) : Int) ∧
      (headDims M D n wf).start (ix2 p q) idx (1 : Fin 2) + ((headDims M D n wf).window (ix2 p q) (1 : Fin 2) : Int) < (D : Int) := by
    have hq := q.isLt
    rw [hstart, hw1]; omega
  have hb : ∀ a, 0 ≤ (headDims M D n wf).start (ix2 p q) idx a + ((headDims M D n wf).window (ix2 p q) a : Int) ∧
      (headDims M D n wf).start (ix2 p q) idx a + ((headDims M D n wf).window (ix2 p q) a : Int)
        < ((⟨2, ![M, D]⟩ : Shape).size a : Int) := by
    intro a
    match a with
    | ⟨0, _⟩ => exact hb0
    | ⟨1, _⟩ => exact hb1
  have hv0 : ((headDims M D n wf).start (ix2 p q) idx (0 : Fin 2) + ((headDims M D n wf).window (ix2 p q) (0 : Fin 2) : Int)).toNat
      = p.val := by
    rw [hstart, hw0]; omega
  have hv1 : ((headDims M D n wf).start (ix2 p q) idx (1 : Fin 2) + ((headDims M D n wf).window (ix2 p q) (1 : Fin 2) : Int)).toNat
      = q.val := by
    rw [hstart, hw1]; omega
  unfold ScatterDims.resultIdx?
  rw [dif_pos hb]
  congr 1
  funext a
  refine Fin.ext ?_
  match a with
  | ⟨0, _⟩ => exact hv0
  | ⟨1, _⟩ => exact hv1

/-- With the index vector zero and the body returning the update, a row below `n` of the result is the update's row. -/
theorem scatter_head_apply {M D n w : Nat} (hn : n ≤ M)
    (wf : ScatterDims.WF ⟨2, ![M, D]⟩ ⟨1, ![1]⟩ ⟨2, ![n, D]⟩ [0, 1] [] [0] 0)
    (x : (⟨2, ![M, D]⟩ : Shape).Idx → α) (idx : IVec ⟨1, ![1]⟩ w) (hidx : ∀ i, (idx i).toInt = 0)
    (upd : (⟨2, ![n, D]⟩ : Shape).Idx → α) (j : Fin n) (e : Fin D) :
    Host.scatter (headDims M D n wf) (fun _ b => b) x idx upd (ix2 ⟨j.val, by omega⟩ e) = upd (ix2 j e) := by
  unfold Host.scatter
  refine foldl_overwrite_apply
    (g := fun m => (headDims M D n wf).resultIdx? ((⟨2, ![n, D]⟩ : Shape).rowMajor.symm m) idx)
    (upd := fun m => upd ((⟨2, ![n, D]⟩ : Shape).rowMajor.symm m)) _ _ _ ?_ ?_ _ x ?_ ?_
  · -- a step whose update lands at `i` writes the update there and keeps every other position
    intro r m i hg
    simp only [hg]
    exact ⟨if_pos trivial, fun k hk => if_neg hk⟩
  · intro r m hg
    simp only [hg]
  · -- landing positions are the update's own coordinates, so only the update's `(j, e)` lands at `(j, e)`
    intro m _ hg
    obtain ⟨p, q, hpq⟩ : ∃ p q, (⟨2, ![n, D]⟩ : Shape).rowMajor.symm m = ix2 p q := ⟨_, _, eq_ix2 _⟩
    simp only [hpq] at hg ⊢
    rw [head_resultIdx hn wf idx hidx p q] at hg
    have h := Option.some.inj hg
    have h0 : p.val = j.val := by
      have := congrArg Fin.val (congrFun h (0 : Fin 2))
      exact this
    have h1 : q = e := congrFun h (1 : Fin 2)
    have hp : p = j := Fin.ext h0
    rw [hp, h1]
  · -- and it does land there: the row-major enumeration reaches every update index
    refine Or.inr ⟨(⟨2, ![n, D]⟩ : Shape).rowMajor (ix2 j e), List.mem_finRange _, ?_⟩
    simp only [Equiv.symm_apply_apply]
    exact head_resultIdx hn wf idx hidx j e

end Cert.LibGather
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.RefValue.lean ====
/-
  The reference program's result, read as the loss formula.

  The reference first brings each label into [0, 500) as an array index that may be negative is read, 500 added to a
  negative one (a label that is a class number is left as it is), takes for every sample the row of the centre table its label names, and the distance of
  the sample to that row directly: the square root of the sum of squared differences. It then takes all distances through
  the expansion |x|² + |c|² − 2⟨x, c⟩, floored at a small constant before the square root; picks out of each row of that
  table the entry in the label's column (the label brought into range once more, the range test true, so the picked entry
  is kept); adds each row up and takes the picked entry away; divides by 499; divides the own distance by that; and takes
  the mean of the ratios over the samples plus a tenth of the mean own distance. Each step below reads one of these values
  at an index; the last puts them together as Spec.lossBySubtraction.
-/
import proofs.«404542_j59717225283876_2_alg».proof.Proof.RefRead
import proofs.«404542_j59717225283876_2_alg».proof.Proof.Spec
import proofs.«404542_j59717225283876_2_alg».proof.Proof.LibGather
import proofs.«404542_j59717225283876_2_alg».proof.Proof.LibSums
import Idealize.ShloMosaic.Lib.StableHlo.Predicate
import Idealize.ShloMosaic.PureOps.Reduce
import Idealize.ShloMosaic.PureOps.Ideal.Laws
import Idealize.ShloMosaic.Lib.ValueIdx

open scoped BigOperators

noncomputable section

namespace Cert.ReferenceIdeal.RefValue

open Idealize.ShloMosaic Idealize.ShloMosaic.ValueIdx Cert.ReferenceIdeal Cert.ReferenceIdeal.Gen Cert.ReferenceIdeal.ReadP
  Cert.Spec

/-! ## A class number as a 32-bit word -/

/-- A class number below 500, written as a 32-bit word, has that value. -/
theorem toNat_word (n : Fin 500) : (BitVec.ofNat 32 n.val).toNat = n.val := by
  rw [BitVec.toNat_ofNat]
  exact Nat.mod_eq_of_lt (by have := n.isLt; omega)

theorem toNat_word_lt (n : Fin 500) : (BitVec.ofNat 32 n.val).toNat < 2 ^ 31 := by
  rw [toNat_word]; have := n.isLt; omega

/-- "label < 0", compared as signed words, is false for a class number. -/
theorem slt_zero (n : Fin 500) : IntOp.cmpi .slt (BitVec.ofNat 32 n.val) 0#32 = 0#1 := by
  refine eq_zero_of_ne_one fun h => ?_
  have h' := (StableHlo.Predicate.slt_iff_toNat (toNat_word_lt n) (by decide)).1 h
  exact absurd h' (Nat.not_lt_zero _)

/-- "label ≥ 0" is true for a class number. -/
theorem sge_zero (n : Fin 500) : IntOp.cmpi .sge (BitVec.ofNat 32 n.val) 0#32 = 1#1 :=
  (StableHlo.Predicate.sge_iff_toNat (toNat_word_lt n) (by decide)).2 (Nat.zero_le _)

/-- "label ≤ 499" is true for a class number. -/
theorem sle_last (n : Fin 500) : IntOp.cmpi .sle (BitVec.ofNat 32 n.val) 499#32 = 1#1 := by
  refine (StableHlo.Predicate.sle_iff_toNat (toNat_word_lt n) (by decide)).2 ?_
  rw [toNat_word]
  show n.val ≤ 499
  have := n.isLt; omega

/-- Read as a signed integer and clamped into the table's rows, a class number is itself. -/
theorem clamp_word (n : Fin 500) : min (BitVec.ofNat 32 n.val).toInt.toNat (500 - 1) = n.val := by
  rw [StableHlo.Predicate.toInt_ofNat_small n.val (by have := n.isLt; omega)]
  have := n.isLt; omega

/-- A conjunction of true bits, started from true, is true. -/
theorem fold_andi_one {ι : Type} (s : Finset ι) : s.fold IntOp.andi 1#1 (fun _ => 1#1) = 1#1 := by
  classical
  induction s using Finset.induction_on with
  | empty => rfl
  | insert a s ha ih => rw [Finset.fold_insert ha, ih]; rfl

/-! ## The index maps of the layout operations, at coordinates -/

theorem idx_v5 (r : Fin 131072) (e : Fin 1) : idx_main_v5 (ix2 r e) = ix1 r :=
  funext fun a => Fin.ext (by match a with | ⟨0, _⟩ => rfl)

theorem idx_call0_v1 (r : Fin 131072) (d : Fin 256) : idx_main_call0_v1 (ix1 r) d = ix2 r d :=
  funext fun a => Fin.ext (by match a with | ⟨0, _⟩ => rfl | ⟨1, _⟩ => rfl)

theorem idx_v10 (r : Fin 131072) (d : Fin 256) : idx_main_v10 (ix1 r) d = ix2 r d :=
  funext fun a => Fin.ext (by match a with | ⟨0, _⟩ => rfl | ⟨1, _⟩ => rfl)

theorem idx_v12 (j : Fin 500) (d : Fin 256) : idx_main_v12 (ix1 j) d = ix2 j d :=
  funext fun a => Fin.ext (by match a with | ⟨0, _⟩ => rfl | ⟨1, _⟩ => rfl)

theorem idx_v13 (d : Fin 256) (j : Fin 500) : idx_main_v13 (ix2 d j) = ix2 j d :=
  funext fun a => Fin.ext (by match a with | ⟨0, _⟩ => rfl | ⟨1, _⟩ => rfl)

theorem lidx_v14 (r : Fin 131072) (j : Fin 500) (d : Fin 256) : lidx_main_v14 (ix2 r j) d = ix2 r d :=
  funext fun a => Fin.ext (by match a with | ⟨0, _⟩ => rfl | ⟨1, _⟩ => rfl)

theorem ridx_v14 (r : Fin 131072) (j : Fin 500) (d : Fin 256) : ridx_main_v14 (ix2 r j) d = ix2 d j :=
  funext fun a => Fin.ext (by match a with | ⟨0, _⟩ => rfl | ⟨1, _⟩ => rfl)

theorem idx_v15 (r : Fin 131072) (e : Fin 1) : idx_main_v15 (ix2 r e) = ix1 r :=
  funext fun a => Fin.ext (by match a with | ⟨0, _⟩ => rfl)

theorem idx_v16 (e : Fin 1) (j : Fin 500) : idx_main_v16 (ix2 e j) = ix1 j :=
  funext fun a => Fin.ext (by match a with | ⟨0, _⟩ => rfl)

theorem idx_v17 (r : Fin 131072) (j : Fin 500) : idx_main_v17 (ix2 r j) = ix2 r 0 :=
  funext fun a => Fin.ext (by match a with | ⟨0, _⟩ => rfl | ⟨1, _⟩ => rfl)

theorem idx_v18 (r : Fin 131072) (j : Fin 500) : idx_main_v18 (ix2 r j) = ix2 0 j :=
  funext fun a => Fin.ext (by match a with | ⟨0, _⟩ => rfl | ⟨1, _⟩ => rfl)

theorem idx_v26 (r : Fin 131072) (e : Fin 1) : idx_main_v26 (ix2 r e) = ix1 r :=
  funext fun a => Fin.ext (by match a with | ⟨0, _⟩ => rfl)

theorem idx_call1_v5 (r : Fin 131072) : idx_main_call1_v5 (ix3 r 0 0) = ix2 r 0 :=
  funext fun a => Fin.ext (by
    match a with
    | ⟨0, _⟩ => show ((r.val * 1 + 0) * 1 + 0) / 1 = r.val; omega
    | ⟨1, _⟩ => rfl)

theorem idx_v28 (r : Fin 131072) : idx_main_v28 (ix1 r) = ix2 r 0 :=
  funext fun a => Fin.ext (by
    match a with
    | ⟨0, _⟩ => show r.val / 1 = r.val; omega
    | ⟨1, _⟩ => rfl)

theorem idx_v29 (r : Fin 131072) (j : Fin 500) : idx_main_v29 (ix1 r) j = ix2 r j :=
  funext fun a => Fin.ext (by match a with | ⟨0, _⟩ => rfl | ⟨1, _⟩ => rfl)

/-! ## The labels -/

section
variable (X : (⟨S131072x256, .f32⟩ : BufTy).Contents (Elt Ideal)) (Lb : (⟨S131072, .i32⟩ : BufTy).Contents (Elt Ideal))
  (C : (⟨S500x256, .f32⟩ : BufTy).Contents (Elt Ideal)) (k : Fin 131072 → Fin 500)

/-- A label that is a class number is not negative, so bringing it into range leaves it as it is. -/
theorem label_row (hk : ∀ i : Fin 131072, Lb (ix1 i) = BitVec.ofNat 32 (k i).val) (r : Fin 131072) :
    val_main_v4 (F := Ideal) Lb (ix1 r) = BitVec.ofNat 32 (k r).val := by
  rw [val_main_v4_apply, val_main_v1_apply, val_main_v0_apply, val_main_c_apply, hk r, slt_zero, select_zero]

/-- The start index of row r of the gather: the label of r. -/
theorem start_row (hk : ∀ i : Fin 131072, Lb (ix1 i) = BitVec.ofNat 32 (k i).val) (r : Fin 131072) :
    val_main_v5 (F := Ideal) Lb (ix2 r 0) = BitVec.ofNat 32 (k r).val := by
  rw [val_main_v5_apply, idx_v5, label_row Lb k hk r]

/-! ## The own centre and the distance to it -/

/-- Row r of the gathered table is the centre of r's class. -/
theorem centre_entry (hk : ∀ i : Fin 131072, Lb (ix1 i) = BitVec.ofNat 32 (k i).val) (r : Fin 131072) (d : Fin 256) :
    val_main_v6 (F := Ideal) Lb C (ix2 r d) = rows C (k r) d := by
  unfold val_main_v6
  refine (LibGather.gather_rows_apply (N := 500) (D := 256) (R := 131072) (by decide)
    gather_S500x256_S131072x1_S131072x256_1_0_n_n_0_1_1256_wf C (val_main_v5 (F := Ideal) Lb) r d).trans ?_
  refine congrArg C (congrArg (fun p => ix2 p d) (Fin.ext ?_))
  show min (val_main_v5 (F := Ideal) Lb (ix2 r 0)).toInt.toNat (500 - 1) = (k r).val
  rw [start_row Lb k hk r]
  exact clamp_word (k r)

/-- The difference sample − own centre, entry by entry. -/
theorem diff_entry (hk : ∀ i : Fin 131072, Lb (ix1 i) = BitVec.ofNat 32 (k i).val) (r : Fin 131072) (d : Fin 256) :
    val_main_v7 (F := Ideal) X Lb C (ix2 r d) = rows X r d - rows C (k r) d := by
  rw [val_main_v7_apply, centre_entry Lb C k hk r d, Ideal.subf_def]

/-- The distance of sample r to its own centre, taken directly. -/
theorem own_row (hk : ∀ i : Fin 131072, Lb (ix1 i) = BitVec.ofNat 32 (k i).val) (r : Fin 131072) :
    val_main_v8 (F := Ideal) X Lb C (ix1 r) = own (rows X) (fun i => rows C (k i)) r := by
  rw [val_main_v8_apply, val_main_call0_v1_apply, val_main_call0_cst_apply, Ideal.hostUnary_sqrt_def, Ideal.ofBits_def,
    Ideal.ofBits_zero_f32, zero_add]
  show _ = Ideal.sqrt (∑ d : Fin 256, (rows X r d - rows C (k r) d) * (rows X r d - rows C (k r) d))
  refine congrArg Ideal.sqrt (Finset.sum_congr rfl fun d _ => ?_)
  rw [idx_call0_v1, val_main_call0_v0_apply, diff_entry X Lb C k hk r d, Ideal.mulf_def]

/-! ## All distances, through the expansion -/

/-- The squared length of sample r. -/
theorem x2_row (r : Fin 131072) : val_main_v10 (F := Ideal) X (ix1 r) = sq (rows X) r := by
  rw [val_main_v10_apply, val_main_cst_apply, Ideal.ofBits_def, Ideal.ofBits_zero_f32, zero_add]
  show _ = ∑ d : Fin 256, rows X r d * rows X r d
  refine Finset.sum_congr rfl fun d _ => ?_
  rw [idx_v10, val_main_v9_apply, Ideal.mulf_def]

/-- The squared length of centre j. -/
theorem c2_row (j : Fin 500) : val_main_v12 (F := Ideal) C (ix1 j) = sq (rows C) j := by
  rw [val_main_v12_apply, val_main_cst_1_apply, Ideal.ofBits_def, Ideal.ofBits_zero_f32, zero_add]
  show _ = ∑ d : Fin 256, rows C j d * rows C j d
  refine Finset.sum_congr rfl fun d _ => ?_
  rw [idx_v12, val_main_v11_apply, Ideal.mulf_def]

/-- The inner product of sample r and centre j: the product with the transposed table. -/
theorem xc_entry (r : Fin 131072) (j : Fin 500) : val_main_v14 (F := Ideal) X C (ix2 r j) = dot (rows X) (rows C) r j := by
  rw [val_main_v14_apply]
  show _ = ∑ d : Fin 256, rows X r d * rows C j d
  refine Finset.sum_congr rfl fun d _ => ?_
  rw [lidx_v14, ridx_v14, val_main_v13_apply, idx_v13]

/-- The distance of sample r to centre j. -/
theorem dist_entry (r : Fin 131072) (j : Fin 500) :
    val_main_v25 (F := Ideal) X C (ix2 r j) = dist (rows X) (rows C) (sq (rows C)) r j := by
  show _ = Ideal.sqrt (max ((sq (rows X) r + sq (rows C) j) - two * dot (rows X) (rows C) r j) eps)
  rw [val_main_v25_apply, val_main_v24_apply, val_main_v22_apply, val_main_v19_apply, val_main_v17_apply, idx_v17,
    val_main_v15_apply, idx_v15, x2_row, val_main_v18_apply, idx_v18, val_main_v16_apply, idx_v16, c2_row,
    val_main_v21_apply, val_main_v20_apply, val_main_cst_2_apply, xc_entry, val_main_v23_apply, val_main_cst_3_apply]
  simp only [Ideal.hostUnary_sqrt_def, Ideal.maximumf_def, Ideal.subf_def, Ideal.addf_def, Ideal.mulf_def, Ideal.ofBits_def]

/-! ## The entry in the label's column -/

/-- The label again, as a column of width one. -/
theorem label_col (hk : ∀ i : Fin 131072, Lb (ix1 i) = BitVec.ofNat 32 (k i).val) (r : Fin 131072) :
    val_main_v26 (F := Ideal) Lb (ix2 r 0) = BitVec.ofNat 32 (k r).val := by
  rw [val_main_v26_apply, idx_v26, hk r]

/-- Brought into range a second time, the label is still itself. -/
theorem label_col_norm (hk : ∀ i : Fin 131072, Lb (ix1 i) = BitVec.ofNat 32 (k i).val) (r : Fin 131072) :
    val_main_call1_v4 (F := Ideal) Lb (ix2 r 0) = BitVec.ofNat 32 (k r).val := by
  rw [val_main_call1_v4_apply, val_main_call1_v1_apply, val_main_call1_v0_apply, val_main_call1_c_apply,
    label_col Lb k hk r, slt_zero, select_zero]

/-- The start index of row r of the second gather: the label of r. -/
theorem start_col (hk : ∀ i : Fin 131072, Lb (ix1 i) = BitVec.ofNat 32 (k i).val) (r : Fin 131072) :
    val_main_call1_v5 (F := Ideal) Lb (ix3 r 0 0) = BitVec.ofNat 32 (k r).val := by
  rw [val_main_call1_v5_apply, idx_call1_v5, label_col_norm Lb k hk r]

/-- The range test 0 ≤ label ≤ 499 holds in row r. -/
theorem inRange_row (hk : ∀ i : Fin 131072, Lb (ix1 i) = BitVec.ofNat 32 (k i).val) (r : Fin 131072) :
    val_main_call1_v11 (F := Ideal) Lb (ix3 r 0 0) = 1#1 := by
  rw [val_main_call1_v11_apply, val_main_call1_v7_apply, val_main_call1_v10_apply, start_col Lb k hk r,
    val_main_call1_v6_apply, val_main_call1_c_2_apply, val_main_call1_v9_apply, val_main_call1_v8_apply,
    val_main_call1_c_1_apply, sge_zero, sle_last]
  rfl

/-- The range test holds at every index. -/
theorem inRange_all (hk : ∀ i : Fin 131072, Lb (ix1 i) = BitVec.ofNat 32 (k i).val) (i : S131072x1x1.Idx) :
    val_main_call1_v11 (F := Ideal) Lb i = 1#1 := by
  obtain ⟨p, q, s, rfl⟩ : ∃ (p : Fin 131072) (q : Fin 1) (s : Fin 1), i = ix3 p q s := ⟨i 0, i 1, i 2, eq_ix3 i⟩
  obtain rfl := Fin.eq_zero q
  obtain rfl := Fin.eq_zero s
  exact inRange_row Lb k hk p

/-- The conjunction of the test over the last axis (of size one) is true. -/
theorem inRange_reduced (hk : ∀ i : Fin 131072, Lb (ix1 i) = BitVec.ofNat 32 (k i).val) (j : S131072x1.Idx) :
    val_main_call1_v12 (F := Ideal) Lb j = 1#1 := by
  unfold val_main_call1_v12
  rw [Host.reduce_eq_fold_single IntOp.andi _ _ reducesTo_S131072x1x1_S131072x1_d2 (by decide) h_S_ j,
    val_main_call1_c_3_apply]
  have hx : ∀ f : Fin (S131072x1x1.size 2) → S131072x1x1.Idx,
      (val_main_call1_v11 (F := Ideal) Lb ∘ f) = fun _ => 1#1 := fun f => funext fun c => inRange_all Lb k hk (f c)
  rw [hx]
  exact fold_andi_one _

/-- The picked entry of row r: the distance to the own centre through the expansion. -/
theorem picked_entry (hk : ∀ i : Fin 131072, Lb (ix1 i) = BitVec.ofNat 32 (k i).val) (r : Fin 131072) :
    val_main_call1_v13 (F := Ideal) X Lb C (ix2 r 0) = dist (rows X) (rows C) (sq (rows C)) r (k r) := by
  unfold val_main_call1_v13
  refine (LibGather.gather_along_apply (R := 131072) (N := 500) (by decide)
    gather_S131072x500_S131072x1x1_S131072x1_n_1_0_0_1_2_11_wf (val_main_v25 (F := Ideal) X C)
    (val_main_call1_v5 (F := Ideal) Lb) r).trans ?_
  refine Eq.trans (congrArg (val_main_v25 (F := Ideal) X C) (congrArg (fun p => ix2 r p) (Fin.ext ?_)))
    (dist_entry X C r (k r))
  show min (val_main_call1_v5 (F := Ideal) Lb (ix3 r 0 0)).toInt.toNat (500 - 1) = (k r).val
  rw [start_col Lb k hk r]
  exact clamp_word (k r)

/-- The picked entry is kept (the range test is true), and read back as a vector over the samples. -/
theorem picked_row (hk : ∀ i : Fin 131072, Lb (ix1 i) = BitVec.ofNat 32 (k i).val) (r : Fin 131072) :
    val_main_v28 (F := Ideal) X Lb C (ix1 r) = dist (rows X) (rows C) (sq (rows C)) r (k r) := by
  rw [val_main_v28_apply, idx_v28, val_main_v27_apply, inRange_reduced Lb k hk, select_one, picked_entry X Lb C k hk r]

/-! ## The ratio of a row -/

/-- The distances of sample r to all 500 centres, added. -/
theorem rowsum_row (r : Fin 131072) :
    val_main_v29 (F := Ideal) X C (ix1 r) = ∑ j : Fin 500, dist (rows X) (rows C) (sq (rows C)) r j := by
  rw [val_main_v29_apply, val_main_cst_4_apply, Ideal.ofBits_def, Ideal.ofBits_zero_f32, zero_add]
  refine Finset.sum_congr rfl fun j _ => ?_
  rw [idx_v29, dist_entry]

/-- Own distance over the mean distance to the 499 other centres. -/
theorem ratio_row (hk : ∀ i : Fin 131072, Lb (ix1 i) = BitVec.ofNat 32 (k i).val) (r : Fin 131072) :
    val_main_v33 (F := Ideal) X Lb C (ix1 r) = ratioBySubtraction (rows X) (rows C) k r := by
  show _ = Ideal.div (own (rows X) (fun i => rows C (k i)) r)
    (Ideal.div ((∑ j : Fin 500, dist (rows X) (rows C) (sq (rows C)) r j) - dist (rows X) (rows C) (sq (rows C)) r (k r))
      nOthers)
  rw [val_main_v33_apply, val_main_v32_apply, val_main_v30_apply, val_main_v31_apply, val_main_cst_5_apply,
    own_row X Lb C k hk r, rowsum_row X C r, picked_row X Lb C k hk r]
  simp only [Ideal.hostDivf_def, Ideal.subf_def, Ideal.ofBits_def]

end

/-! ## The result -/

/-- The reference's result is the loss, the rows of the two float arguments and the class numbers of the labels put in. -/
theorem result_eq (X : (⟨S131072x256, .f32⟩ : BufTy).Contents (Elt Ideal)) (Lb : (⟨S131072, .i32⟩ : BufTy).Contents (Elt Ideal))
    (C : (⟨S500x256, .f32⟩ : BufTy).Contents (Elt Ideal)) (k : Fin 131072 → Fin 500)
    (hk : ∀ i : Fin 131072, Lb (ix1 i) = BitVec.ofNat 32 (k i).val) :
    val_main_v39 (F := Ideal) X Lb C = fun _ => lossBySubtraction (rows X) (rows C) k := by
  funext i
  show _ = Ideal.div (∑ r : Fin 131072, ratioBySubtraction (rows X) (rows C) k r) nSamples
    + weight * Ideal.div (∑ r : Fin 131072, own (rows X) (fun i => rows C (k i)) r) nSamples
  have h1 : ∑ p : Fin 131072, val_main_v33 (F := Ideal) X Lb C (ix1 p) = ∑ p : Fin 131072, ratioBySubtraction (rows X) (rows C) k p :=
    Finset.sum_congr rfl fun p _ => ratio_row X Lb C k hk p
  have h2 : ∑ p : Fin 131072, val_main_v8 (F := Ideal) X Lb C (ix1 p) = ∑ p : Fin 131072, own (rows X) (fun i => rows C (k i)) p :=
    Finset.sum_congr rfl fun p _ => own_row X Lb C k hk p
  rw [val_main_v39_apply, val_main_v35_apply, val_main_v38_apply, val_main_v37_apply, val_main_v34_apply, val_main_v36_apply,
    val_main_cst_6_apply, val_main_cst_8_apply, val_main_cst_7_apply, val_main_cst_9_apply, val_main_cst_10_apply,
    LibSums.sum_idx1, LibSums.sum_idx1, h1, h2]
  simp only [Ideal.ofBits_def, Ideal.ofBits_zero_f32, zero_add, Ideal.hostDivf_def, Ideal.addf_def, Ideal.mulf_def]

end Cert.ReferenceIdeal.RefValue

end
-- ==== Proof.PreDecode.lean ====
/-
  What the precondition says of the inputs.

  The precondition is a conjunction of four tests, each taken over a whole array and reduced by "and": every feature is
  below +infinity in absolute value, every centre entry likewise, every label is at least 0, every label is below 500.
  On the extended reals "the absolute value max(x, −x) is below +infinity" says that x is neither infinity, so a real
  number; the two label tests say that the label word, read as a signed integer, is a class number in [0, 500).
-/
import proofs.«404542_j59717225283876_2_alg».proof.Pre_finite_inputs
import proofs.«404542_j59717225283876_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreDecode

open Idealize.ShloMosaic Idealize.ShloMosaic.ValueIdx Cert.Pre_finite_inputs

/-- A rank-0 array has one index. -/
instance : Subsingleton S_.Idx := ⟨fun a b => funext fun d => d.elim0⟩

/-- The bit pattern the tests compare with is +infinity. -/
theorem inf_word : Ideal.ofBits .f32 0x7F800000#32 = (⊤ : EReal) := by
  simp [Ideal.ofBits, Ideal.ieee]

/-- An extended real whose absolute value is below +infinity is neither infinity. -/
theorem finite_of_abs_lt (x : EReal) (hx : Ideal.cmp .olt (max x (-x)) (Ideal.ofBits .f32 0x7F800000#32) = 1#1) :
    x ≠ ⊥ ∧ x ≠ ⊤ := by
  rw [inf_word] at hx
  have hlt : max x (-x) < ⊤ := by
    have h1 : BitVec.ofBool (decide (max x (-x) < ⊤)) = 1#1 := hx
    have h2 : decide (max x (-x) < ⊤) = true := by
      cases hd : decide (max x (-x) < ⊤) with
      | true => rfl
      | false => rw [hd] at h1; exact absurd h1 (by decide)
    exact of_decide_eq_true h2
  constructor
  · rintro rfl
    rw [EReal.neg_bot, max_eq_right bot_le] at hlt
    exact lt_irrefl _ hlt
  · rintro rfl
    rw [max_eq_left le_top] at hlt
    exact lt_irrefl _ hlt

/-- Under the precondition every feature and every centre entry is a real number and every label word, read signed,
    lies in [0, 500). -/
theorem decode [Cert.Pre_finite_inputs.Facts] (X : FVec Ideal S131072x256 .f32) (Lb : IVec S131072 32)
    (C : FVec Ideal S500x256 .f32) (h : fn (F := Ideal) X Lb C = fun _ => 1#1) :
    (∀ i, X i ≠ ⊥ ∧ X i ≠ ⊤) ∧ (∀ i, C i ≠ ⊥ ∧ C i ≠ ⊤) ∧ (∀ i, 0 ≤ (Lb i).toInt ∧ (Lb i).toInt < 500) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ⟨?_, ?_⟩⟩
  · exact finite_of_abs_lt (X i) (Host.reduce_andi_all _ _ _ _ ix0 h1 i)
  · exact finite_of_abs_lt (C i) (Host.reduce_andi_all _ _ _ _ ix0 h2 i)
  · have e := IntOp.cmpi_sge.1 (Host.reduce_andi_all _ _ _ _ ix0 h3 i)
    exact e
  · have e := IntOp.cmpi_slt.1 (Host.reduce_andi_all _ _ _ _ ix0 h4 i)
    exact e

/-- The class a label word names: its value as a natural number (reduced modulo 500 so that it is a class number
    whatever the word; under the precondition nothing is reduced). -/
def classOf (Lb : IVec S131072 32) (i : Fin 131072) : Fin 500 :=
  ⟨(Lb (ix1 i)).toNat % 500, Nat.mod_lt _ (by decide)⟩

/-- A label word that lies in [0, 500) as a signed integer is the word of its class number. -/
theorem classOf_spec (Lb : IVec S131072 32) (i : Fin 131072)
    (h : 0 ≤ (Lb (ix1 i)).toInt ∧ (Lb (ix1 i)).toInt < 500) :
    Lb (ix1 i) = BitVec.ofNat 32 (classOf Lb i).val := by
  have hlt : (Lb (ix1 i)).toNat < 2 ^ 32 := (Lb (ix1 i)).isLt
  have hInt := BitVec.toInt_eq_toNat_cond (Lb (ix1 i))
  have hnat : (Lb (ix1 i)).toNat < 500 := by
    obtain ⟨h0, h1⟩ := h
    rw [hInt] at h0 h1
    split at h0 <;> omega
  show Lb (ix1 i) = BitVec.ofNat 32 ((Lb (ix1 i)).toNat % 500)
  rw [Nat.mod_eq_of_lt hnat, BitVec.ofNat_toNat, BitVec.setWidth_eq]

end Cert.PreDecode

end
-- ==== Proof.KValue.lean ====
/-
  The first program's run, read back as far as its two arrays of partial sums.

  The launch has 64 grid points. Point `t` receives rows 2048·t … 2048·t + 2047 of the features, of the gathered own
  centres and of the labels, and the whole table of 512 padded centres with their squared lengths; it writes one number,
  repeated over an 8 × 128 tile, into slot `t` of each of two arrays of shape 64 × 8 × 128: the tile's sum of own
  distances, and the tile's sum of ratios. The tiles do not overlap and fill both arrays, so after the launch entry
  (t, a, b) of each array is what point `t` wrote at (0, a, b). The lines after the launch take entry (t, 0, 0) of each
  array for every `t`, add the 64 numbers, divide by the number of samples, and combine the two means.
-/
import proofs.«404542_j59717225283876_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KVal

open Idealize.ShloMosaic Idealize.ShloMosaic.TcCoe Idealize.SL.Sem Idealize.ShloMosaic.StableHlo Idealize.ShloMosaic.ValueIdx
open Cert.KernelIdeal Cert.KernelIdeal.Gen
open Idealize.ShloMosaic.Pipeline (Dat Cfg Window)

variable (m : (ℓ : Loc nD τ sig) → Buf (Elt Ideal) ℓ) (ρ : Dev nD → PrngReg)

/-! ## Where each point's output tile lies -/

/-- Point `t`'s tile of either output array is slot `t`: block index (t, 0, 0). -/
theorem out_index : ∀ t : Fin cfg0.N,
    win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The grid point whose tile holds array index `i`: its leading coordinate. -/
def pointOf (i : S64x8x128.Idx) : Fin cfg0.N :=
  ⟨(i 0).val, (show (i 0).val < 64 from (i 0).isLt).trans_eq N_0.symm⟩

/-- What point `t` leaves in its tile of the first output array: the body's first stored value of the point's blocks. -/
def ownTile (c : Dev nD) (t : Fin cfg0.N) : Vec Ideal S1x8x128 .f32 :=
  out0_5 (iblk m c 0 t) (iblk m c 1 t) (iblk m c 2 t) (iblk m c 3 t) (iblk m c 4 t)

/-- What point `t` leaves in its tile of the second output array. -/
def ratioTile (c : Dev nD) (t : Fin cfg0.N) : Vec Ideal S1x8x128 .f32 :=
  out0_6 (iblk m c 0 t) (iblk m c 1 t) (iblk m c 2 t) (iblk m c 3 t) (iblk m c 4 t)

/-- The first output array as one function: entry (t, a, b) is entry (0, a, b) of point `t`'s tile. -/
def ownArr (c : Dev nD) : S64x8x128.Idx → Elt Ideal .f32 :=
  fun i => ownTile m c (pointOf i) (ix3 (n0 := 1) (n1 := 8) (n2 := 128) 0 (i 1) (i 2))

/-- The second output array likewise. -/
def ratioArr (c : Dev nD) : S64x8x128.Idx → Elt Ideal .f32 :=
  fun i => ratioTile m c (pointOf i) (ix3 (n0 := 1) (n1 := 8) (n2 := 128) 0 (i 1) (i 2))

/-! ## What a point writes back is its tile of that function -/

set_option maxHeartbeats 2000000 in
theorem flushed5_eq (c : Dev nD) (t : Fin cfg0.N) :
    (dats m 0 c).flushed 5 t = ((cfg0.win 5).blk t).view.read (Elt Ideal) (ownArr m c) := by
  show (cfg0.win 5).cut (grid0.coords t) ((dats m 0 c).after 5 t) = _
  rw [after0_5]
  obtain ⟨e0, e1, e2, -, -, -⟩ := out_index t
  funext j
  rw [View.read_apply]
  show out0_5 (iblk m c 0 t) (iblk m c 1 t) (iblk m c 2 t) (iblk m c 3 t) (iblk m c 4 t) j = _
  unfold ownArr ownTile
  have hj0 : (j 0).val < 1 := (j 0).isLt
  have ht : pointOf (((cfg0.win 5).blk t).view.emb j) = t := by
    apply Fin.ext
    show win0_5.index t (0 : Fin 3) * 1 + 1 * (j 0).val = t.val
    omega
  have hj : ix3 (n0 := 1) (n1 := 8) (n2 := 128) 0 ((((cfg0.win 5).blk t).view.emb j) 1) ((((cfg0.win 5).blk t).view.emb j) 2) = j := by
    funext a; apply Fin.ext
    match a with
    | ⟨0, _⟩ => show (0 : ℕ) = (j 0).val; omega
    | ⟨1, _⟩ => show win0_5.index t (1 : Fin 3) * 8 + 1 * (j 1).val = (j 1).val; omega
    | ⟨2, _⟩ => show win0_5.index t (2 : Fin 3) * 128 + 1 * (j 2).val = (j 2).val; omega
  rw [ht, hj, cast_eq]

set_option maxHeartbeats 2000000 in
theorem flushed6_eq (c : Dev nD) (t : Fin cfg0.N) :
    (dats m 0 c).flushed 6 t = ((cfg0.win 6).blk t).view.read (Elt Ideal) (ratioArr m c) := by
  show (cfg0.win 6).cut (grid0.coords t) ((dats m 0 c).after 6 t) = _
  rw [after0_6]
  obtain ⟨-, -, -, e0, e1, e2⟩ := out_index t
  funext j
  rw [View.read_apply]
  show out0_6 (iblk m c 0 t) (iblk m c 1 t) (iblk m c 2 t) (iblk m c 3 t) (iblk m c 4 t) j = _
  unfold ratioArr ratioTile
  have hj0 : (j 0).val < 1 := (j 0).isLt
  have ht : pointOf (((cfg0.win 6).blk t).view.emb j) = t := by
    apply Fin.ext
    show win0_6.index t (0 : Fin 3) * 1 + 1 * (j 0).val = t.val
    omega
  have hj : ix3 (n0 := 1) (n1 := 8) (n2 := 128) 0 ((((cfg0.win 6).blk t).view.emb j) 1) ((((cfg0.win 6).blk t).view.emb j) 2) = j := by
    funext a; apply Fin.ext
    match a with
    | ⟨0, _⟩ => show (0 : ℕ) = (j 0).val; omega
    | ⟨1, _⟩ => show win0_6.index t (1 : Fin 3) * 8 + 1 * (j 1).val = (j 1).val; omega
    | ⟨2, _⟩ => show win0_6.index t (2 : Fin 3) * 128 + 1 * (j 2).val = (j 2).val; omega
  rw [ht, hj, cast_eq]

/-! ## The tiles fill the arrays -/

theorem mem_blk5 (t : Fin cfg0.N) (i : S64x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v16_0).slice (win0_5.rect t)).set ↔ _
  rw [View.set_slice_whole, Rect.mem_set_unit]
  exact Iff.rfl

theorem mem_blk6 (t : Fin cfg0.N) (i : S64x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v16_1).slice (win0_6.rect t)).set ↔ _
  rw [View.set_slice_whole, Rect.mem_set_unit]
  exact Iff.rfl

/-- Every index of the first output array lies in the tile of the point its leading coordinate names. -/
theorem cover5 (i : S64x8x128.Idx) : ∃ t : Fin cfg0.N, (cfg0.win 5).flush t = true ∧ i ∈ ((cfg0.win 5).blk t).view.set := by
  refine ⟨pointOf i, flush0_5 _, ?_⟩
  rw [mem_blk5]
  obtain ⟨e0, e1, e2, -, -, -⟩ := out_index (pointOf i)
  have h1 : (i 1).val < 8 := (i 1).isLt
  have h2 : (i 2).val < 128 := (i 2).isLt
  have hp : (pointOf i).val = (i 0).val := rfl
  intro a
  match a with
  | ⟨0, _⟩ => show win0_5.index (pointOf i) (0 : Fin 3) * 1 ≤ (i 0).val ∧ (i 0).val < win0_5.index (pointOf i) (0 : Fin 3) * 1 + 1; omega
  | ⟨1, _⟩ => show win0_5.index (pointOf i) (1 : Fin 3) * 8 ≤ (i 1).val ∧ (i 1).val < win0_5.index (pointOf i) (1 : Fin 3) * 8 + 8; omega
  | ⟨2, _⟩ => show win0_5.index (pointOf i) (2 : Fin 3) * 128 ≤ (i 2).val ∧ (i 2).val < win0_5.index (pointOf i) (2 : Fin 3) * 128 + 128; omega

theorem cover6 (i : S64x8x128.Idx) : ∃ t : Fin cfg0.N, (cfg0.win 6).flush t = true ∧ i ∈ ((cfg0.win 6).blk t).view.set := by
  refine ⟨pointOf i, flush0_6 _, ?_⟩
  rw [mem_blk6]
  obtain ⟨-, -, -, e0, e1, e2⟩ := out_index (pointOf i)
  have h1 : (i 1).val < 8 := (i 1).isLt
  have h2 : (i 2).val < 128 := (i 2).isLt
  have hp : (pointOf i).val = (i 0).val := rfl
  intro a
  match a with
  | ⟨0, _⟩ => show win0_6.index (pointOf i) (0 : Fin 3) * 1 ≤ (i 0).val ∧ (i 0).val < win0_6.index (pointOf i) (0 : Fin 3) * 1 + 1; omega
  | ⟨1, _⟩ => show win0_6.index (pointOf i) (1 : Fin 3) * 8 ≤ (i 1).val ∧ (i 1).val < win0_6.index (pointOf i) (1 : Fin 3) * 8 + 8; omega
  | ⟨2, _⟩ => show win0_6.index (pointOf i) (2 : Fin 3) * 128 ≤ (i 2).val ∧ (i 2).val < win0_6.index (pointOf i) (2 : Fin 3) * 128 + 128; omega

/-- After the launch the first output array is `ownArr`. -/
theorem final5 (c : Dev nD) : (dats m 0 c).arrAt 5 cfg0.N = ownArr m c :=
  (dats m 0 c).arrAt_eq_of_cover 5 (ownArr m c) (fun t _ => flushed5_eq m c t) (cover5)

/-- After the launch the second output array is `ratioArr`. -/
theorem final6 (c : Dev nD) : (dats m 0 c).arrAt 6 cfg0.N = ratioArr m c :=
  (dats m 0 c).arrAt_eq_of_cover 6 (ratioArr m c) (fun t _ => flushed6_eq m c t) (cover6)

/-! ## The lines after the launch -/

/-- From the two arrays of partial sums to the loss: entry (t, 0, 0) of each for every `t`, the 64 added from zero,
    each total divided by the number of samples, the mean ratio plus the weight times the mean own distance. -/
def tail (o5 o6 : FVec Ideal S64x8x128 .f32) : FVec Ideal S_ .f32 :=
  addf
    (Host.divf
      (Host.reduceAdd (shapeCast S64 (extractStridedSlice S64x1x1 ![0, 0, 0] o6 slices_S64x8x128_S64x1x1_0_0_0) shapeCasts_S64x1x1_S64)
        (constant (F := Ideal) S_ .f32 0x00000000#32) reducesTo_S64_S_d0 h_S_)
      (constant (F := Ideal) S_ .f32 0x48000000#32))
    (mulf (constant (F := Ideal) S_ .f32 0x3DCCCCCD#32)
      (Host.divf
        (Host.reduceAdd (shapeCast S64 (extractStridedSlice S64x1x1 ![0, 0, 0] o5 slices_S64x8x128_S64x1x1_0_0_0) shapeCasts_S64x1x1_S64)
          (constant (F := Ideal) S_ .f32 0x00000000#32) reducesTo_S64_S_d0 h_S_)
        (constant (F := Ideal) S_ .f32 0x48000000#32)))

/-- The result buffer after the lines that follow the launch is `tail` of the two output arrays. -/
theorem tail_result (c : Dev nD) :
    Pipeline.afterTail₀ cfgs (dats (F := Ideal) m) 0 (V0 (F := Ideal) m) [hostOps1 (F := Ideal)] c main_v26
      = tail (ownArr m c) (ratioArr m c) := by
  unfold Pipeline.afterTail₀
  show StableHlo.after hostOps1 _ (Proc.devRef .tc main_v26) = _
  after_results
  have e5 : Pipeline.withArrays (cfgs 0).spec c (V0 m c) (fun w => (dats m 0 c).arrAt w (cfgs 0).N) (Proc.tc.devRef main_v16_0)
      = ownArr m c :=
    (Pipeline.withArrays_arr spec0 launch0.win.arr_inj c _ _ 5).trans (final5 m c)
  have e6 : Pipeline.withArrays (cfgs 0).spec c (V0 m c) (fun w => (dats m 0 c).arrAt w (cfgs 0).N) (Proc.tc.devRef main_v16_1)
      = ratioArr m c :=
    (Pipeline.withArrays_arr spec0 launch0.win.arr_inj c _ _ 6).trans (final6 m c)
  rw [e5, e6]
  rfl

/-! ## The run, read -/

/-- Every weakly fair execution of the first program ends with the result buffer at `tail` of the two arrays of
    partial sums, and the three argument arrays unchanged. -/
theorem run_tail : θ_run defs (onTc (τ := τ) (main (F := Ideal))) ⟨m, fun _ => 0, ρ⟩ (fun r => ∀ c : Dev nD,
      r.2.mem ((c.tc : Thread nD τ).loc main_v26) = tail (ownArr m c) (ratioArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v26 (Pipeline.mem_restRefs_of main_v26 (by decide) (by decide))).trans (tail_result m c),
      ((h c).1 0).trans ((((dats m 0 c).arrAt_in 0 rfl _).trans ((A_eq m c 0).trans (V_main_arg0 m c)))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.KVal

end
-- ==== Proof.KBody.lean ====
/-
  The kernel body's four values, read entry by entry.

  One step of the kernel takes a tile of 2048 samples (rows of 256 features), the 2048 rows of their own centres, the table
  of 512 centres (of which the first 500 count), the table's squared lengths and the 2048 label words. It forms two columns
  of 2048 numbers and stores two tiles of 8 × 128 numbers.

  The first column holds, at row r, the distance of sample r to its own centre: the square root of the sum over the 256
  features of the squared differences. The second column holds, at row r, the sum over the 512 table columns j of the
  distance of sample r to centre j through the expansion |x|² + |c|² − 2⟨x, c⟩, floored at a small constant before the root,
  where j is below 500 and is not the label of r, and of zero elsewhere. The inner products come from one matrix product of
  the samples with the transposed table into a zero accumulator; on the extended reals the narrowing of the samples to the
  shorter float format is the identity, and the product at (r, j) is the plain sum over the 256 features.

  The first stored tile is the sum of the first column over its 2048 rows, the one number written at all 8 × 128 places; the
  second is the sum over the rows of the first column divided by the 499th part of the second, written likewise. Each sum
  is taken as a reduction of the column, viewed as a 1 × 2048 × 1 array, over its last two axes: a sum over every index of
  that array, which the middle coordinate counts.

  So the two stored tiles are, at every place, the tile's sum of own distances and the tile's sum of ratios.
-/
import proofs.«404542_j59717225283876_2_alg».proof.Proof.Gen.KernelIdeal.Skeleton
import proofs.«404542_j59717225283876_2_alg».proof.Proof.Spec
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.WordArith
import Idealize.ShloMosaic.Lib.ValueLayout

open scoped BigOperators

noncomputable section

namespace Cert.KernelIdeal.Body

open Idealize.ShloMosaic Idealize.ShloMosaic.ValueIdx Cert.KernelIdeal Cert.KernelIdeal.Gen Cert.Spec

/-! ## Sums along rows, and a column's two views -/

/-- A lane sum of a [2048, 256] array into a zero accumulator, read at row `r`: the sum over the 256 columns. -/
theorem rowSum256 (v : FVec Ideal S2048x256 .f32) (hacc : (0x00000000#32 : BitVec 32) = 0x00000000#32) (r : Fin 2048) :
    multiReduction (F := Ideal) .add [1] S2048 v 0x00000000#32 reduces_S2048x256_S2048 (.inl rfl) hacc (ix1 r)
      = ∑ d : Fin 256, v (ix2 r d) := by
  refine (Ideal.multiReduction_add_single v 0x00000000#32 reduces_S2048x256_S2048 (.inl rfl) hacc (ix1 r)).trans ?_
  refine Finset.sum_congr rfl fun d _ => congrArg v ?_
  funext a
  match a with
  | ⟨0, _⟩ => rfl
  | ⟨1, _⟩ => rfl

/-- A lane sum of a [2048, 512] array into a zero accumulator, read at row `r`: the sum over the 512 columns. -/
theorem rowSum512 (v : FVec Ideal S2048x512 .f32) (hacc : (0x00000000#32 : BitVec 32) = 0x00000000#32) (r : Fin 2048) :
    multiReduction (F := Ideal) .add [1] S2048 v 0x00000000#32 reduces_S2048x512_S2048 (.inl rfl) hacc (ix1 r)
      = ∑ j : Fin 512, v (ix2 r j) := by
  refine (Ideal.multiReduction_add_single v 0x00000000#32 reduces_S2048x512_S2048 (.inl rfl) hacc (ix1 r)).trans ?_
  refine Finset.sum_congr rfl fun j _ => congrArg v ?_
  funext a
  match a with
  | ⟨0, _⟩ => rfl
  | ⟨1, _⟩ => rfl

/-- A column [2048] viewed as [2048, 1]: entry (r, 0) is entry r. -/
theorem col_apply {α : Type} (v : S2048.Idx → α) (r : Fin 2048) (c : Fin 1) :
    shapeCast S2048x1 v shapeCasts_S2048_S2048x1 (ix2 r c) = v (ix1 r) := by
  refine shapeCast_apply v shapeCasts_S2048_S2048x1 (ix2 r c) (ix1 r) ?_
  rw [Shape.rowMajor_val_one, Shape.rowMajor_val_two]
  show r.val = r.val * 1 + c.val
  have := c.isLt
  omega

/-- The first payload at row `r`: the distance of the row to its own centre. -/
theorem pay3_apply (x0 x3 : Vec Ideal S2048x256 .f32) (r : Fin 2048) :
    k0_pay3 (F := Ideal) x0 x3 (ix2 r 0) = own (rows x0) (rows x3) r := by
  unfold k0_pay3
  simp only [shapeCast_self]
  show Ideal.sqrt (shapeCast S2048x1 _ shapeCasts_S2048_S2048x1 (ix2 r 0)) = _
  rw [col_apply]
  exact congrArg Ideal.sqrt (rowSum256 _ _ r)

/-! ## The total of a column, and one number spread over a tile -/

/-- A [2048, 1] column viewed as [1, 2048, 1]: entry (0, r, 0) is entry (r, 0). -/
theorem lead_apply {α : Type} (v : S2048x1.Idx → α) (r : Fin 2048) (a c : Fin 1) :
    shapeCast S1x2048x1 v shapeCasts_S2048x1_S1x2048x1 (ix3 a r c) = v (ix2 r 0) := by
  refine shapeCast_apply v shapeCasts_S2048x1_S1x2048x1 (ix3 a r c) (ix2 r 0) ?_
  rw [Shape.rowMajor_val_two, Shape.rowMajor_val_three]
  show r.val * 1 + 0 = (a.val * 2048 + r.val) * 1 + c.val
  have := a.isLt
  have := c.isLt
  omega

/-- The indices of a [1, 2048, 1] array are the 2048 rows. -/
def rowEquiv : Fin 2048 ≃ S1x2048x1.Idx where
  toFun r := ix3 0 r 0
  invFun i := i 1
  left_inv _ := rfl
  right_inv i := by
    funext a
    refine Fin.ext ?_
    match a with
    | ⟨0, _⟩ =>
      have h : (i 0).val < 1 := (i 0).isLt
      show 0 = (i 0).val
      omega
    | ⟨1, _⟩ => rfl
    | ⟨2, _⟩ =>
      have h : (i 2).val < 1 := (i 2).isLt
      show 0 = (i 2).val
      omega

/-- The sum of all entries of a [2048, 1] column, taken as a reduction of its [1, 2048, 1] view over the last two axes into a
    zero accumulator: the sum over the rows. -/
theorem total_apply (v : FVec Ideal S2048x1 .f32) (hacc : (0x00000000#32 : BitVec 32) = 0x00000000#32) (j : S1.Idx) :
    multiReduction (F := Ideal) .add [1, 2] S1 (shapeCast S1x2048x1 v shapeCasts_S2048x1_S1x2048x1) 0x00000000#32
        reduces_S1x2048x1_S1 (.inl rfl) hacc j
      = ∑ r : Fin 2048, v (ix2 r 0) := by
  refine (Ideal.multiReduction_add_total _ 0x00000000#32 reduces_S1x2048x1_S1 (fun b => ?_) (.inl rfl) hacc j).trans ?_
  · match b with
    | ⟨0, _⟩ => rfl
  · refine (Equiv.sum_comp rowEquiv _).symm.trans ?_
    exact Finset.sum_congr rfl fun r _ => lead_apply v r 0 0

/-- One number spread over a [1, 8, 128] tile: every entry is that number. -/
theorem splat_apply (w : S1.Idx → EReal) (y : S1x8x128.Idx) :
    shapeCast S1x8x128 (broadcast S8x128 (extractAt ![0, 0, 0] (shapeCast S1x1x1 w shapeCasts_S1_S1x1x1) inpos_S1x1x1_p0_0_0))
        shapeCasts_S8x128_S1x8x128 y = w (ix1 0) := by
  unfold shapeCast broadcast extractAt
  exact congrArg w ((eq_ix1 _).trans (congrArg ix1 (Subsingleton.elim _ _)))

/-- The tile the kernel stores first: every entry is the sum of the column over the 2048 rows. -/
theorem pay1_apply (v13 : FVec Ideal S2048x1 .f32) (y : S1x8x128.Idx) :
    k0_pay1 (F := Ideal) v13 y = ∑ r : Fin 2048, v13 (ix2 r 0) := by
  unfold k0_pay1
  refine (splat_apply _ y).trans ?_
  exact total_apply v13 rfl (ix1 0)

/-- The tile the kernel stores second: every entry is the sum over the rows of the first column divided by the 499th part of the second. -/
theorem pay2_apply (v13 v39 : FVec Ideal S2048x1 .f32) (y : S1x8x128.Idx) :
    k0_pay2 (F := Ideal) v13 v39 y = ∑ r : Fin 2048, Ideal.div (v13 (ix2 r 0)) (Ideal.div (v39 (ix2 r 0)) nOthers) := by
  unfold k0_pay2
  refine (splat_apply _ y).trans ?_
  exact total_apply _ rfl (ix1 0)

/-! ## The pointwise operations at an index -/

/-- A square root at an index is the square root of the element. -/
theorem sqrt_apply {s : Shape} {φ : FTy} (a : FVec Ideal s φ) (i : s.Idx) : sqrt a i = Ideal.sqrt (a i) := rfl
/-- A word comparison at an index compares the elements. -/
theorem cmpi_apply {s : Shape} {w : ℕ} (p : CmpIPredicate) (a b : IVec s w) (i : s.Idx) :
    cmpi p a b i = IntOp.cmpi p (a i) (b i) := rfl
/-- A bitwise and at an index. -/
theorem andi_apply {s : Shape} {w : ℕ} (a b : IVec s w) (i : s.Idx) : andi a b i = IntOp.andi (a i) (b i) := rfl
/-- A bitwise exclusive or at an index. -/
theorem xori_apply {s : Shape} {w : ℕ} (a b : IVec s w) (i : s.Idx) : xori a b i = IntOp.xori (a i) (b i) := rfl

/-! ## The layout operations of the second distance at an index -/

/-- A [2048, 1] column spread over 512 columns: entry (r, j) is entry (r, 0). -/
theorem spreadCol_apply {α : Type} (v : S2048x1.Idx → α) (r : Fin 2048) (j : Fin 512) :
    broadcastTo S2048x512 v broadcasts_S2048x1_S2048x512 (ix2 r j) = v (ix2 r 0) :=
  broadcastTo_apply v broadcasts_S2048x1_S2048x512 (ix2 r j) (ix2 r 0) fun a => match a with
    | ⟨0, _⟩ => rfl
    | ⟨1, _⟩ => rfl

/-- A [1, 512] row spread over 2048 rows: entry (r, j) is entry (0, j). -/
theorem spreadRow_apply {α : Type} (v : S1x512.Idx → α) (r : Fin 2048) (j : Fin 512) :
    broadcastTo S2048x512 v broadcasts_S1x512_S2048x512 (ix2 r j) = v (ix2 0 j) :=
  broadcastTo_apply v broadcasts_S1x512_S2048x512 (ix2 r j) (ix2 0 j) fun a => match a with
    | ⟨0, _⟩ => rfl
    | ⟨1, _⟩ => rfl

/-- The table of centres transposed: entry (d, j) is entry (j, d). -/
theorem swap_apply {α : Type} (v : S512x256.Idx → α) (d : Fin 256) (j : Fin 512) :
    transpose S256x512 [1, 0] v transposes_S512x256_p1_0_S256x512 (ix2 d j) = v (ix2 j d) :=
  transpose_apply [1, 0] v transposes_S512x256_p1_0_S256x512 (ix2 d j) (ix2 j d) fun b => match b with
    | ⟨0, _⟩ => rfl
    | ⟨1, _⟩ => rfl

/-- The column counter: entry (r, j) is the word of the column number j. -/
theorem colNumber_apply (r : Fin 2048) (j : Fin 512) :
    iota .tc S2048x512 32 [1] iota_S2048x512_d1_w32 (ix2 r j) = BitVec.ofNat 32 j.val :=
  iota_single_apply .tc S2048x512 32 1 iota_S2048x512_d1_w32 (ix2 r j)

/-! ## The product of the samples and the transposed table

The product's dimension numbers contract axis 1 of the left factor with axis 0 of the right one; the four lemmas below read the two
operand indices of output entry `i` at contraction position `q`, one axis each. -/

/-- The left operand's row is the output's row. -/

theorem lhs_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
/-- The left operand's column is the contraction position. -/
theorem lhs_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
/-- The right operand's row is the contraction position. -/
theorem rhs_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
/-- The right operand's column is the output's column. -/
theorem rhs_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The product into a zero accumulator at (r, j): the sum over the 256 features of row r of the left factor times column j of
    the right one. -/
theorem product_apply (A : FVec Ideal S2048x256 .bf16) (B : FVec Ideal S256x512 .bf16) (r : Fin 2048) (j : Fin 512) :
    matmul (F := Ideal) dot_S2048x256_S256x512_S2048x512_1_0_0_1_n_n none A B (constant (F := Ideal) S2048x512 .f32 0x00000000#32) (ix2 r j)
      = ∑ d : Fin 256, A (ix2 r d) * B (ix2 d j) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 r j) ((contrEquiv1 dot_S2048x256_S256x512_S2048x512_1_0_0_1_n_n 256 rfl rfl).symm k) = ix2 r k := funext fun a => Fin.ext (by
    match a with
    | ⟨0, _⟩ => exact lhs_0 _ _
    | ⟨1, _⟩ => exact (lhs_1 _ _).trans hk)
  have er : dot_S2048x256_S256x512_S2048x512_1_0_0_1_n_n.rhsIdx (ix2 r j) ((contrEquiv1 dot_S2048x256_S256x512_S2048x512_1_0_0_1_n_n 256 rfl rfl).symm k) = ix2 k j := funext fun a => Fin.ext (by
    match a with
    | ⟨0, _⟩ => exact (rhs_0 _ _).trans hk
    | ⟨1, _⟩ => exact rhs_1 _ _)
  rw [el, er]

/-! ## The mask -/

/-- On words: "the column number is below 500 and is not the label", as the kernel's two comparisons, the flip of the second and
    their conjunction compute it. -/
theorem mask_word (n : ℕ) (hn : n < 512) (l : BitVec 32) :
    IntOp.andi (IntOp.cmpi .slt (BitVec.ofNat 32 n) 500#32) (IntOp.xori (IntOp.cmpi .eq (BitVec.ofNat 32 n) l) 1#1) = 1#1
      ↔ n < 500 ∧ BitVec.ofNat 32 n ≠ l := by
  have hn' : (BitVec.ofNat 32 n).toNat = n := WordArith.toNat_ofNat_of_lt n (by omega)
  have h1 : IntOp.cmpi .slt (BitVec.ofNat 32 n) 500#32 = 1#1 ↔ n < 500 := by
    rw [StableHlo.Predicate.slt_iff_toNat (by rw [hn']; omega) (by decide), hn']
    exact Iff.rfl
  have h2 : IntOp.cmpi .eq (BitVec.ofNat 32 n) l = 1#1 ↔ BitVec.ofNat 32 n = l := StableHlo.Predicate.cmpi_eq_iff
  generalize IntOp.cmpi .slt (BitVec.ofNat 32 n) 500#32 = p at h1 ⊢
  generalize IntOp.cmpi .eq (BitVec.ofNat 32 n) l = q at h2 ⊢
  rw [← h1, ne_eq, ← h2]
  rcases BitVec.eq_zero_or_eq_one p with hp | hp <;> rcases BitVec.eq_zero_or_eq_one q with hq | hq <;>
    subst hp <;> subst hq <;> decide

/-- The mask at (r, j) is set exactly when column j is below 500 and is not row r's label. -/
theorem mask_apply (lab : IVec S2048x1 32) (r : Fin 2048) (j : Fin 512) :
    andi (cmpi .slt (iota .tc S2048x512 32 [1] iota_S2048x512_d1_w32) (broadcast S2048x512 500#32))
        (xori (cmpi .eq (iota .tc S2048x512 32 [1] iota_S2048x512_d1_w32) (broadcastTo S2048x512 lab broadcasts_S2048x1_S2048x512))
          (constantI S2048x512 1 1#1)) (ix2 r j) = 1#1
      ↔ j.val < 500 ∧ BitVec.ofNat 32 j.val ≠ lab (ix2 r 0) := by
  rw [andi_apply, cmpi_apply, xori_apply, cmpi_apply, broadcast_apply, constantI_apply, colNumber_apply, spreadCol_apply]
  exact mask_word j.val j.isLt (lab (ix2 r 0))

/-! ## The two columns the loop body hands on -/

/-- The second column at row `r`: the distances of the row, through the expansion, added over the columns the mask keeps. -/
theorem pay4_apply (x0 : Vec Ideal S2048x256 .f32) (x1 : Vec Ideal S512x256 .bf16) (x2 : Vec Ideal S1x512 .f32)
    (x4 : Vec Ideal S2048x1 .i32) (r : Fin 2048) :
    k0_pay4 (F := Ideal) x0 x1 x2 x4 (ix2 r 0)
      = othersMasked (rows x0) (rows x1) (fun j => x2 (ix2 0 j)) (fun r => x4 (ix2 r 0)) r := by
  unfold k0_pay4
  simp only [shapeCast_self]
  refine (col_apply _ r 0).trans ?_
  refine (rowSum512 _ rfl r).trans ?_
  unfold othersMasked
  refine Finset.sum_congr rfl fun j _ => ?_
  rw [select_apply]
  unfold Scalar.select
  refine if_congr (mask_apply x4 r j) ?_ Ideal.ofBits_zero_f32
  rw [sqrt_apply, maximumf_apply, subf_apply, addf_apply, mulf_apply, broadcast_apply, broadcast_apply, spreadCol_apply,
    spreadRow_apply, col_apply, rowSum256, product_apply]
  unfold Cert.Spec.dist Cert.Spec.sq Cert.Spec.dot
  have hswap : ∀ d : Fin 256, transpose S256x512 [1, 0] x1 transposes_S512x256_p1_0_S256x512 (ix2 d j) = x1 (ix2 j d) :=
    fun d => swap_apply x1 d j
  simp only [truncf_apply, hswap]
  rfl

/-! ## The two tiles the kernel stores -/

/-- The first stored tile: every entry is the tile's sum of own distances. -/
theorem pay_own (x0 x3 : Vec Ideal S2048x256 .f32) (y : S1x8x128.Idx) :
    k0_pay1 (F := Ideal) (k0_pay3 (F := Ideal) x0 x3) y = tileOwn (rows x0) (rows x3) := by
  rw [pay1_apply]
  unfold tileOwn
  exact Finset.sum_congr rfl fun r _ => pay3_apply x0 x3 r

/-- The second stored tile: every entry is the tile's sum of ratios. -/
theorem pay_ratio (x0 x3 : Vec Ideal S2048x256 .f32) (x1 : Vec Ideal S512x256 .bf16) (x2 : Vec Ideal S1x512 .f32)
    (x4 : Vec Ideal S2048x1 .i32) (y : S1x8x128.Idx) :
    k0_pay2 (F := Ideal) (k0_pay3 (F := Ideal) x0 x3) (k0_pay4 (F := Ideal) x0 x1 x2 x4) y
      = tileRatio (rows x0) (rows x3) (rows x1) (fun j => x2 (ix2 0 j)) (fun r => x4 (ix2 r 0)) := by
  rw [pay2_apply]
  unfold tileRatio
  exact Finset.sum_congr rfl fun r _ => by rw [pay3_apply, pay4_apply]

end Cert.KernelIdeal.Body

end
-- ==== Proof.KBlocks.lean ====
/-
  The blocks a grid point receives, read off the arrays the launch finds.

  Point `t` of the 64 receives rows 2048·t … 2048·t + 2047 of the features, of the gathered own centres and of the labels
  (blocks of 2048 rows, block index t), and the whole padded table of centres and the whole row of their squared lengths
  (one block, index 0): entry (r, d) of a row block is entry (2048·t + r, d) of its array.
-/
import proofs.«404542_j59717225283876_2_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.KBlk

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (m : (ℓ : Loc nD τ sig) → Buf (Elt Ideal) ℓ) (c : Dev nD)

/-- The input windows' block indices at point `t`: (t, 0) for the three row-blocked arrays, (0, 0) for the two whole ones. -/
theorem in_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A grid point as a tile number below 64. -/
def tileNo (t : Fin cfg0.N) : Fin 64 := ⟨t.val, lt_of_lt_of_eq t.isLt N_0⟩

/-- Row `r` of point `t`'s blocks as a row of the whole arrays. -/
def rowOf (t : Fin cfg0.N) (r : Fin 2048) : Fin 131072 :=
  ⟨t.val * 2048 + r.val, by have := lt_of_lt_of_eq t.isLt N_0; have := r.isLt; omega⟩

/-- The five input blocks of point `t`, each at its literal type. -/
abbrev featBlk (t : Fin cfg0.N) : Vec Ideal S2048x256 .f32 := iblk m c 0 t
abbrev tableBlk (t : Fin cfg0.N) : Vec Ideal S512x256 .bf16 := iblk m c 1 t
abbrev lengthsBlk (t : Fin cfg0.N) : Vec Ideal S1x512 .f32 := iblk m c 2 t
abbrev ownBlk (t : Fin cfg0.N) : Vec Ideal S2048x256 .f32 := iblk m c 3 t
abbrev labelBlk (t : Fin cfg0.N) : Vec Ideal S2048x1 .i32 := iblk m c 4 t

set_option maxHeartbeats 2000000 in
theorem featBlk_apply (t : Fin cfg0.N) (r : Fin 2048) (d : Fin 256) :
    featBlk m c t (ix2 r d) = V m c main_arg0 (ix2 (rowOf t r) d) := by
  obtain ⟨e0, e1, -, -, -, -, -, -, -, -⟩ := in_index t
  show ((cfg0.win 0).blk t).view.read (Elt Ideal) (V m c (Pipeline.arrRef spec0 0)) (ix2 r d) = _
  rw [View.read_apply, cast_eq]
  refine congrArg (V m c main_arg0) ?_
  funext a; apply Fin.ext
  match a with
  | ⟨0, _⟩ => show win0_0.index t (0 : Fin 2) * 2048 + 1 * r.val = t.val * 2048 + r.val; omega
  | ⟨1, _⟩ => show win0_0.index t (1 : Fin 2) * 256 + 1 * d.val = d.val; omega

set_option maxHeartbeats 2000000 in
theorem ownBlk_apply (t : Fin cfg0.N) (r : Fin 2048) (d : Fin 256) :
    ownBlk m c t (ix2 r d) = V m c main_v14 (ix2 (rowOf t r) d) := by
  obtain ⟨-, -, -, -, -, -, e0, e1, -, -⟩ := in_index t
  show ((cfg0.win 3).blk t).view.read (Elt Ideal) (V m c (Pipeline.arrRef spec0 3)) (ix2 r d) = _
  rw [View.read_apply, cast_eq]
  refine congrArg (V m c main_v14) ?_
  funext a; apply Fin.ext
  match a with
  | ⟨0, _⟩ => show win0_3.index t (0 : Fin 2) * 2048 + 1 * r.val = t.val * 2048 + r.val; omega
  | ⟨1, _⟩ => show win0_3.index t (1 : Fin 2) * 256 + 1 * d.val = d.val; omega

set_option maxHeartbeats 2000000 in
theorem labelBlk_apply (t : Fin cfg0.N) (r : Fin 2048) :
    labelBlk m c t (ix2 r (0 : Fin 1)) = V m c main_v15 (ix2 (rowOf t r) (0 : Fin 1)) := by
  obtain ⟨-, -, -, -, -, -, -, -, e0, e1⟩ := in_index t
  show ((cfg0.win 4).blk t).view.read (Elt Ideal) (V m c (Pipeline.arrRef spec0 4)) (ix2 r (0 : Fin 1)) = _
  rw [View.read_apply, cast_eq]
  refine congrArg (V m c main_v15) ?_
  funext a; apply Fin.ext
  match a with
  | ⟨0, _⟩ => show win0_4.index t (0 : Fin 2) * 2048 + 1 * r.val = t.val * 2048 + r.val; omega
  | ⟨1, _⟩ => show win0_4.index t (1 : Fin 2) * 1 + 1 * (0 : ℕ) = 0; omega

set_option maxHeartbeats 2000000 in
theorem tableBlk_apply (t : Fin cfg0.N) (j : Fin 512) (d : Fin 256) :
    tableBlk m c t (ix2 j d) = V m c main_v3 (ix2 j d) := by
  obtain ⟨-, -, e0, e1, -, -, -, -, -, -⟩ := in_index t
  show ((cfg0.win 1).blk t).view.read (Elt Ideal) (V m c (Pipeline.arrRef spec0 1)) (ix2 j d) = _
  rw [View.read_apply, cast_eq]
  refine congrArg (V m c main_v3) ?_
  funext a; apply Fin.ext
  match a with
  | ⟨0, _⟩ => show win0_1.index t (0 : Fin 2) * 512 + 1 * j.val = j.val; omega
  | ⟨1, _⟩ => show win0_1.index t (1 : Fin 2) * 256 + 1 * d.val = d.val; omega

set_option maxHeartbeats 2000000 in
theorem lengthsBlk_apply (t : Fin cfg0.N) (j : Fin 512) :
    lengthsBlk m c t (ix2 (0 : Fin 1) j) = V m c main_v7 (ix2 (0 : Fin 1) j) := by
  obtain ⟨-, -, -, -, e0, e1, -, -, -, -⟩ := in_index t
  show ((cfg0.win 2).blk t).view.read (Elt Ideal) (V m c (Pipeline.arrRef spec0 2)) (ix2 (0 : Fin 1) j) = _
  rw [View.read_apply, cast_eq]
  refine congrArg (V m c main_v7) ?_
  funext a; apply Fin.ext
  match a with
  | ⟨0, _⟩ => show win0_2.index t (0 : Fin 2) * 1 + 1 * (0 : ℕ) = 0; omega
  | ⟨1, _⟩ => show win0_2.index t (1 : Fin 2) * 512 + 1 * j.val = j.val; omega

end Cert.KernelIdeal.KBlk

end
-- ==== Proof.KPrefix.lean ====
/-
  What the host computes before the launch, read at an index, over the extended reals.

  Before its one launch the program pads the table of centres with zero rows to 512 rows (zeros with the centres written
  from row 0; the conversion to the narrower float format is the identity on extended reals), takes each padded row's
  squared length (the product with itself summed along the row from 0, then laid out as one row of 512), gathers for
  every sample the centre its label names (a label below zero is first moved up by 500; the start index is clamped into
  the table), and reshapes the labels to a column. Here each of the four arrays the launch receives is read at an index
  in terms of the program's three arguments: for a row below 500 the padded table is the centres' row and its squared
  length the sum of that row's squares; for labels that are the words of numbers below 500 the gathered row is the
  centre of that number; the column of labels holds the labels.
-/
import proofs.«404542_j59717225283876_2_alg».proof.Proof.Gen.KernelIdeal.Frame
import proofs.«404542_j59717225283876_2_alg».proof.Proof.LibGather
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal
import Idealize.ShloMosaic.PureOps.Ideal.Laws

set_option maxRecDepth 16384

noncomputable section

namespace Cert.KernelIdeal.KPre

open Idealize.ShloMosaic Idealize.ShloMosaic.TcCoe Idealize.SL.Sem Idealize.ShloMosaic.StableHlo
  Idealize.ShloMosaic.ValueIdx Cert.KernelIdeal Cert.KernelIdeal.Gen

open scoped BigOperators

variable (m : (ℓ : Loc nD τ sig) → Buf (Elt Ideal) ℓ) (c : Dev nD)

/-- The features, as launched. -/
abbrev feat : S131072x256.Idx → EReal := m ((c.tc : Thread nD τ).loc main_arg0)
/-- The labels, as launched. -/
abbrev labs : S131072.Idx → BitVec 32 := m ((c.tc : Thread nD τ).loc main_arg1)
/-- The centres, as launched. -/
abbrev cent : S500x256.Idx → EReal := m ((c.tc : Thread nD τ).loc main_arg2)

/-! ## The padded centres -/

/-- The centres padded with zero rows to 512 rows: zeros, with the centres written at the zero index vector. -/
abbrev padded : FVec Ideal S512x256 .f32 :=
  Host.scatter scatter_S512x256_S1_S500x256_01_n_0_0 (fun _ b => b)
    (broadcastInDim S512x256 ![] bcast_S_S512x256 (constant (F := Ideal) S_ .f32 0x00000000#32))
    (broadcastInDim S1 ![] bcast_S_S1 (constantI S_ 32 0#32)) (cent m c)

/-- A row below 500 of the padded table is the centres' row. -/
theorem padded_apply (j : Fin 512) (hj : j.val < 500) (d : Fin 256) :
    padded m c (ix2 j d) = cent m c (ix2 ⟨j.val, hj⟩ d) :=
  Cert.LibGather.scatter_head_apply (by decide : 500 ≤ 512) _ _ _ (fun _ => rfl) _ ⟨j.val, hj⟩ d

/-- The first table the launch receives is the padded centres in the narrower format. -/
theorem e3 : (V m c main_v3 : S512x256.Idx → EReal) = truncf .bf16 (padded m c) bitsLt_bf16_f32 := by
  show StableHlo.after hostOps0 (fun b => m (c, b)) (Proc.devRef .tc main_v3) = _
  after_results <;> rfl

/-- Read at a row below 500 it is the centres' row: over the extended reals the format change is the identity. -/
theorem v3_apply (j : Fin 512) (hj : j.val < 500) (d : Fin 256) :
    (V m c main_v3 : S512x256.Idx → EReal) (ix2 j d) = cent m c (ix2 ⟨j.val, hj⟩ d) := by
  rw [e3, truncf_apply]
  exact padded_apply m c j hj d

/-! ## The squared lengths -/

/-- The squared lengths of a table's rows, laid out as one row: entry `(0, j)` is the sum over row `j` of the squares
    (the sum starts from the zero constant; the broadcast to a column and the transpose only move the index). -/
theorem rowsq (A : FVec Ideal S512x256 .f32) (j : Fin 512) :
    transpose S1x512 [1, 0] (broadcastInDim S512x1 ![0] bcast_S512_S512x1_0
      (Host.reduceAdd (mulf A A) (constant (F := Ideal) S_ .f32 0x00000000#32) reducesTo_S512x256_S512_d1 h_S_))
      transposes_S512x1_S1x512_1_0 (ix2 (0 : Fin 1) j) = ∑ d : Fin 256, A (ix2 j d) * A (ix2 j d) := by
  rw [transpose_ix2_apply]
  rw [broadcastInDim_apply _ _ _ (ix2 j (0 : Fin 1)) (ix1 j) (fun a => match a with | ⟨0, _⟩ => rfl)]
  have hR : S512x256.Reduces [1] S512 := by decide
  rw [hostReduceAdd_apply, Ideal.hostReduceAdd_single _ hR]
  rw [constant_apply, Ideal.ofBits_zero_f32, zero_add]
  refine Finset.sum_congr rfl fun d _ => ?_
  -- the index of row `j` with `d` inserted on the summed axis is `(j, d)`
  have hl : hR.lift (ix1 j) d = ix2 j d := by
    funext a
    match a with
    | ⟨0, _⟩ => rfl
    | ⟨1, _⟩ => rfl
  rw [mulf_apply, hl]
  rfl

/-- The second table the launch receives is the row of squared lengths of the padded centres. -/
theorem e7 : (V m c main_v7 : S1x512.Idx → EReal) = transpose S1x512 [1, 0] (broadcastInDim S512x1 ![0] bcast_S512_S512x1_0
      (Host.reduceAdd (mulf (padded m c) (padded m c)) (constant (F := Ideal) S_ .f32 0x00000000#32) reducesTo_S512x256_S512_d1 h_S_))
      transposes_S512x1_S1x512_1_0 := by
  show StableHlo.after hostOps0 (fun b => m (c, b)) (Proc.devRef .tc main_v7) = _
  after_results <;> rfl

/-- Read at a column below 500 it is the sum of the squares of that centre's entries. -/
theorem v7_apply (j : Fin 512) (hj : j.val < 500) :
    @Eq EReal ((V m c main_v7 : S1x512.Idx → EReal) (ix2 (0 : Fin 1) j))
      (∑ d : Fin 256, cent m c (ix2 ⟨j.val, hj⟩ d) * cent m c (ix2 ⟨j.val, hj⟩ d)) := by
  rw [e7, rowsq]
  exact Finset.sum_congr rfl fun d _ => by rw [padded_apply m c j hj d]

/-! ## The centres of the labels -/

/-- Rows of a table gathered at labels that are the words of numbers below 500: the label is not below zero, so the
    select keeps it; read signed it is its number, which the clamp into `[0, 499]` leaves; the row is the table's. -/
theorem gathered (C : FVec Ideal S500x256 .f32) (L : IVec S131072 32) (k : Fin 131072 → Fin 500)
    (hk : ∀ i : Fin 131072, L (ix1 i) = BitVec.ofNat 32 (k i).val) (i : Fin 131072) (d : Fin 256) :
    Host.gather gather_S500x256_S131072x1_S131072x256_1_0_n_n_0_1_1256 C
      (broadcastInDim S131072x1 ![0] bcast_S131072_S131072x1_0
        (select (cmpi .slt L (broadcastInDim S131072 ![] bcast_S_S131072 (constantI S_ 32 0#32)))
          (addi L (broadcastInDim S131072 ![] bcast_S_S131072 (constantI S_ 32 500#32))) L)) (ix2 i d)
      = C (ix2 (k i) d) := by
  refine (Cert.LibGather.gather_rows_apply (N := 500) (D := 256) (R := 131072) (by decide)
    gather_S500x256_S131072x1_S131072x256_1_0_n_n_0_1_1256_wf C _ i d).trans ?_
  have hki := (k i).isLt
  -- the start index of sample `i` is its label's word
  have hw : (broadcastInDim S131072x1 ![0] bcast_S131072_S131072x1_0
        (select (cmpi .slt L (broadcastInDim S131072 ![] bcast_S_S131072 (constantI S_ 32 0#32)))
          (addi L (broadcastInDim S131072 ![] bcast_S_S131072 (constantI S_ 32 500#32))) L)) (ix2 i (0 : Fin 1))
      = BitVec.ofNat 32 (k i).val := by
    rw [broadcastInDim_apply _ _ _ (ix2 i (0 : Fin 1)) (ix1 i) (fun a => match a with | ⟨0, _⟩ => rfl)]
    rw [select_apply]
    -- a number below 500 is not below zero as a signed word
    have hc : cmpi .slt L (broadcastInDim S131072 ![] bcast_S_S131072 (constantI S_ 32 0#32)) (ix1 i) = 0#1 := by
      refine eq_zero_of_ne_one fun h1 => ?_
      have h2 : IntOp.cmpi .slt (L (ix1 i)) (0#32) = 1#1 := h1
      rw [hk i] at h2
      have h3 := (Predicate.slt_iff_toNat (by rw [BitVec.toNat_ofNat]; omega) (by decide)).mp h2
      exact Nat.not_lt_zero _ h3
    rw [hc, select_zero, hk i]
  -- read signed and clamped into the table it is the number itself
  have hrow : min ((broadcastInDim S131072x1 ![0] bcast_S131072_S131072x1_0
        (select (cmpi .slt L (broadcastInDim S131072 ![] bcast_S_S131072 (constantI S_ 32 0#32)))
          (addi L (broadcastInDim S131072 ![] bcast_S_S131072 (constantI S_ 32 500#32))) L)) (ix2 i (0 : Fin 1))).toInt.toNat (500 - 1)
      = (k i).val := by
    rw [hw, Predicate.toInt_ofNat_small _ (by omega)]
    omega
  refine congrArg C (funext fun a => ?_)
  match a with
  | ⟨0, _⟩ => exact Fin.ext hrow
  | ⟨1, _⟩ => rfl

/-- The third table the launch receives is the centres gathered at the normalised labels. -/
theorem e14 : (V m c main_v14 : S131072x256.Idx → EReal)
    = Host.gather gather_S500x256_S131072x1_S131072x256_1_0_n_n_0_1_1256 (cent m c)
      (broadcastInDim S131072x1 ![0] bcast_S131072_S131072x1_0
        (select (cmpi .slt (labs m c) (broadcastInDim S131072 ![] bcast_S_S131072 (constantI S_ 32 0#32)))
          (addi (labs m c) (broadcastInDim S131072 ![] bcast_S_S131072 (constantI S_ 32 500#32))) (labs m c))) := by
  show StableHlo.after hostOps0 (fun b => m (c, b)) (Proc.devRef .tc main_v14) = _
  after_results_simp <;> rfl

/-- With every label the word of a number below 500, row `i` of it is the centre of sample `i`'s label. -/
theorem v14_apply (k : Fin 131072 → Fin 500) (hk : ∀ i : Fin 131072, labs m c (ix1 i) = BitVec.ofNat 32 (k i).val)
    (i : Fin 131072) (d : Fin 256) :
    (V m c main_v14 : S131072x256.Idx → EReal) (ix2 i d) = cent m c (ix2 (k i) d) := by
  rw [e14]
  exact gathered (cent m c) (labs m c) k hk i d

/-! ## The labels as a column -/

/-- The last array the launch receives is the labels reshaped to a column. -/
theorem e15 : (V m c main_v15 : S131072x1.Idx → BitVec 32) = shapeCast S131072x1 (labs m c) shapeCasts_S131072_S131072x1 := by
  show StableHlo.after hostOps0 (fun b => m (c, b)) (Proc.devRef .tc main_v15) = _
  after_results <;> rfl

/-- Its entry `(i, 0)` is label `i`: the two indices have the same row-major position. -/
theorem v15_apply (i : Fin 131072) :
    (V m c main_v15 : S131072x1.Idx → BitVec 32) (ix2 i (0 : Fin 1)) = labs m c (ix1 i) := by
  rw [e15]
  refine shapeCast_apply _ _ _ (ix1 i) ?_
  rw [Shape.rowMajor_val_one, Shape.rowMajor_val_two]
  show i.val = i.val * 1 + 0
  omega

end Cert.KernelIdeal.KPre

end
-- ==== Proof.KTail.lean ====
/-
  The lines after the launch, read as the loss of the two totals.

  Of each of the two arrays of partial sums the lines take the entries (t, 0, 0), t = 0 … 63: the slice of extent
  64 × 1 × 1 at the origin, read as a vector of 64. Reading that vector at t walks back through the reshape (the same
  row-major position, t) and the slice (offsets zero) to entry (t, 0, 0). The 64 entries are added from zero, the total
  divided by the number of samples; the loss is the mean of the second array's entries (the ratios) plus the weight
  times the mean of the first's (the own distances).
-/
import proofs.«404542_j59717225283876_2_alg».proof.Proof.KValue
import proofs.«404542_j59717225283876_2_alg».proof.Proof.Spec
import proofs.«404542_j59717225283876_2_alg».proof.Proof.LibSums
import Idealize.ShloMosaic.Lib.Pipeline.Value
import Idealize.ShloMosaic.Lib.ValueIdx
import Idealize.ShloMosaic.PureOps.Ideal
import Idealize.ShloMosaic.PureOps.Ideal.Laws

open scoped BigOperators

noncomputable section

namespace Cert.KernelIdeal.KTail

open Idealize.ShloMosaic Idealize.ShloMosaic.ValueIdx Cert.KernelIdeal Cert.KernelIdeal.Gen Cert.KernelIdeal.KVal Cert.Spec

/-- Entry t of the slice at the origin, read as a vector of 64, is entry (t, 0, 0) of the array. -/
theorem column_apply (o : FVec Ideal S64x8x128 .f32) (t : Fin 64) :
    shapeCast S64 (extractStridedSlice S64x1x1 ![0, 0, 0] o slices_S64x8x128_S64x1x1_0_0_0) shapeCasts_S64x1x1_S64 (ix1 t)
      = o (ix3 t 0 0) := by
  refine (shapeCast_apply _ shapeCasts_S64x1x1_S64 (ix1 t) (ix3 t 0 0) ?_).trans ?_
  · rw [Shape.rowMajor_val_three, Shape.rowMajor_val_one]
    show (t.val * 1 + 0) * 1 + 0 = t.val
    omega
  · exact extractStridedSlice_apply _ o slices_S64x8x128_S64x1x1_0_0_0 (ix3 t 0 0) (ix3 t 0 0) (fun a => by
      match a with
      | ⟨0, _⟩ => show t.val = 0 + t.val; omega
      | ⟨1, _⟩ => rfl
      | ⟨2, _⟩ => rfl)

/-- The 64 entries (t, 0, 0) added from zero. -/
theorem total_apply (o : FVec Ideal S64x8x128 .f32) (i : S_.Idx) :
    Host.reduceAdd (F := Ideal)
        (shapeCast S64 (extractStridedSlice S64x1x1 ![0, 0, 0] o slices_S64x8x128_S64x1x1_0_0_0) shapeCasts_S64x1x1_S64)
        (constant (F := Ideal) S_ .f32 0x00000000#32) reducesTo_S64_S_d0 h_S_ i
      = ∑ t : Fin 64, o (ix3 t 0 0) := by
  have h := Ideal.hostReduceAdd_total reducesTo_S64_S_d0 (fun b => b.elim0)
    (shapeCast S64 (extractStridedSlice S64x1x1 ![0, 0, 0] o slices_S64x8x128_S64x1x1_0_0_0) shapeCasts_S64x1x1_S64)
    (constant (F := Ideal) S_ .f32 0x00000000#32 (Shape.Idx.first h_S_)) i
  simp only [Host.reduceAdd, Ideal.hostReduceAdd_def]
  rw [h, constant_apply, Ideal.ofBits_zero_f32, zero_add, LibSums.sum_idx1]
  exact Finset.sum_congr rfl fun t _ => column_apply o t

/-- The lines after the launch give the loss of the two totals. -/
theorem tail_apply (o5 o6 : FVec Ideal S64x8x128 .f32) :
    tail o5 o6 = fun _ => lossOf (∑ t : Fin 64, o6 (ix3 t 0 0)) (∑ t : Fin 64, o5 (ix3 t 0 0)) := by
  funext i
  show _ = Ideal.div (∑ t : Fin 64, o6 (ix3 t 0 0)) nSamples + weight * Ideal.div (∑ t : Fin 64, o5 (ix3 t 0 0)) nSamples
  unfold tail
  rw [addf_apply, mulf_apply]
  simp only [Host.divf, constant_apply, Ideal.hostDivf_def]
  rw [total_apply o6 i, total_apply o5 i]

end Cert.KernelIdeal.KTail

end
-- ==== Proof.Algebra.lean ====
/-
  The two ways of computing the loss agree on real inputs with labels that are class numbers.

  Row by row: the first program adds the distances of a row over the 512 columns of a padded table, keeping a column only
  if its number is below 500 and differs from the row's label; the second adds the distances to all 500 centres and takes
  the own one away. The padded columns from 500 on are not kept, below 500 the padded table is the table of centres, and
  a column number below 500 equals the label word exactly when it is the row's class. So the first sum is the sum over
  the 500 centres but the own one, and the second is that sum too as soon as the own distance is a real number
  (a + R − a = R fails at the infinities): the inputs are real, so every squared length and inner product is real,
  the floor is a non-negative real, and the square root of a real number that is at least a non-negative real is real.
  Tile by tile against all at once: 64 tiles of 2048 consecutive rows are the 131072 rows, and sums over the extended
  reals may be regrouped freely.
-/
import proofs.«404542_j59717225283876_2_alg».proof.Proof.Spec
import proofs.«404542_j59717225283876_2_alg».proof.Proof.LibSums
import Mathlib.Data.EReal.Basic
import Mathlib.Data.EReal.Operations
import Mathlib.Algebra.BigOperators.Group.Finset.Basic
import Mathlib.Algebra.BigOperators.Group.Finset.Piecewise
import Mathlib.Order.Lattice
import Mathlib.Tactic.Positivity

open scoped BigOperators

noncomputable section

namespace Cert.Algebra

open Idealize.ShloMosaic Cert.Spec

/-- Row `r` of tile `t` as a sample number: tiles are 2048 consecutive rows. -/
def rowAt (t : Fin 64) (r : Fin 2048) : Fin 131072 :=
  ⟨t.val * 2048 + r.val, by have := t.isLt; have := r.isLt; omega⟩

/-! ## The float constants -/

/-- A pattern whose exponent field is not all ones and whose sign bit is clear denotes a non-negative real number. -/
theorem ieee_nonneg_real (e m : ℕ) {w : ℕ} (b : BitVec w) (hex : (b.extractLsb' m e).toNat ≠ 2 ^ e - 1)
    (hs : (b.extractLsb' (e + m) 1 == 1#1) = false) : ∃ r : ℝ, 0 ≤ r ∧ Ideal.ieee e m b = (r : EReal) := by
  unfold Ideal.ieee
  simp only [hs, if_neg hex, Bool.false_eq_true, ↓reduceIte]
  split
  · exact ⟨_, by positivity, rfl⟩
  · exact ⟨_, by positivity, rfl⟩

/-- The floor is a non-negative real number. -/
theorem eps_real : ∃ e : ℝ, 0 ≤ e ∧ eps = (e : EReal) :=
  ieee_nonneg_real 8 23 (0x2B8CBCCC#32) (by decide) (by decide)

/-- The constant 2 is a real number. -/
theorem two_real : ∃ r : ℝ, two = (r : EReal) := by
  obtain ⟨r, _, hr⟩ := ieee_nonneg_real 8 23 (0x40000000#32) (by decide) (by decide)
  exact ⟨r, hr⟩

/-! ## Real inputs give real distances -/

/-- The squared length of a row of real numbers is a real number. -/
theorem sq_real {R : ℕ} (x : Fin R → Fin 256 → EReal) (hx : ∀ i d, x i d ≠ ⊥ ∧ x i d ≠ ⊤) (r : Fin R) :
    ∃ s : ℝ, sq x r = (s : EReal) := by
  refine ⟨∑ d : Fin 256, (x r d).toReal * (x r d).toReal, ?_⟩
  unfold Cert.Spec.sq
  rw [← LibSums.sum_coe]
  refine Finset.sum_congr rfl fun d _ => ?_
  rw [EReal.coe_mul, EReal.coe_toReal (hx r d).2 (hx r d).1]

/-- The inner product of two rows of real numbers is a real number. -/
theorem dot_real {R C : ℕ} (x : Fin R → Fin 256 → EReal) (c : Fin C → Fin 256 → EReal)
    (hx : ∀ i d, x i d ≠ ⊥ ∧ x i d ≠ ⊤) (hc : ∀ j d, c j d ≠ ⊥ ∧ c j d ≠ ⊤) (r : Fin R) (j : Fin C) :
    ∃ p : ℝ, dot x c r j = (p : EReal) := by
  refine ⟨∑ d : Fin 256, (x r d).toReal * (c j d).toReal, ?_⟩
  unfold Cert.Spec.dot
  rw [← LibSums.sum_coe]
  refine Finset.sum_congr rfl fun d _ => ?_
  rw [EReal.coe_mul, EReal.coe_toReal (hx r d).2 (hx r d).1, EReal.coe_toReal (hc j d).2 (hc j d).1]

/-- The distance of a real row to a real centre through the expansion is a real number: what is under the root is a real number
    that is at least the floor, which is not negative. -/
theorem dist_real {R C : ℕ} (x : Fin R → Fin 256 → EReal) (c : Fin C → Fin 256 → EReal)
    (hx : ∀ i d, x i d ≠ ⊥ ∧ x i d ≠ ⊤) (hc : ∀ j d, c j d ≠ ⊥ ∧ c j d ≠ ⊤) (r : Fin R) (j : Fin C) :
    ∃ D : ℝ, dist x c (sq c) r j = (D : EReal) := by
  obtain ⟨a, ha⟩ := sq_real x hx r
  obtain ⟨b, hb⟩ := sq_real c hc j
  obtain ⟨p, hp⟩ := dot_real x c hx hc r j
  obtain ⟨tw, htw⟩ := two_real
  obtain ⟨e, he0, he⟩ := eps_real
  unfold Cert.Spec.dist
  rw [ha, hb, hp, htw, he, ← EReal.coe_add, ← EReal.coe_mul, ← EReal.coe_sub,
    ← EReal.coe_strictMono.monotone.map_max, Ideal.sqrt_coe, if_neg (not_lt.2 (le_trans he0 (le_max_right _ _)))]
  exact ⟨_, rfl⟩

/-! ## One row: the masked sum over the padded table is the sum over the centres less the own distance -/

/-- Two class numbers have the same 32-bit word only if they are the same number. -/
theorem ofNat_inj_small (a b : ℕ) (ha : a < 500) (hb : b < 500) : BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · rintro rfl
    rfl

/-- The sum over 512 columns of the terms whose column is below 500 and is not the label's is the sum over the 500 classes of
    the terms whose class is not the row's, when below 500 the terms agree and the label is the word of the row's class. -/
theorem mask_sum (D : Fin 500 → EReal) (T : Fin 512 → EReal) (l : BitVec 32) (kk : Fin 500) (hl : l = BitVec.ofNat 32 kk.val)
    (hT : ∀ (j : Fin 512) (hj : j.val < 500), T j = D ⟨j.val, hj⟩) :
    (∑ j : Fin 512, if j.val < 500 ∧ BitVec.ofNat 32 j.val ≠ l then T j else 0) = ∑ j : Fin 500, if j ≠ kk then D j else 0 := by
  let f : ℕ → EReal := fun n => if h : n < 500 then (if (⟨n, h⟩ : Fin 500) ≠ kk then D ⟨n, h⟩ else 0) else 0
  have hL : ∀ j : Fin 512, (if j.val < 500 ∧ BitVec.ofNat 32 j.val ≠ l then T j else 0) = f j.val := by
    intro j
    by_cases hj : j.val < 500
    · have hiff : BitVec.ofNat 32 j.val ≠ l ↔ (⟨j.val, hj⟩ : Fin 500) ≠ kk := by
        rw [hl, ne_eq, ne_eq, ofNat_inj_small j.val kk.val hj kk.isLt, Fin.ext_iff]
      show _ = dite (j.val < 500) _ _
      rw [dif_pos hj]
      by_cases hk : (⟨j.val, hj⟩ : Fin 500) ≠ kk
      · rw [if_pos ⟨hj, hiff.2 hk⟩, if_pos hk, hT j hj]
      · rw [if_neg (fun h => hk (hiff.1 h.2)), if_neg hk]
    · show _ = dite (j.val < 500) _ _
      rw [dif_neg hj, if_neg (fun h => hj h.1)]
  have hR : ∀ j : Fin 500, (if j ≠ kk then D j else 0) = f j.val := by
    intro j
    show _ = dite (j.val < 500) _ _
    rw [dif_pos j.isLt]
  rw [Finset.sum_congr rfl fun j _ => hL j, Finset.sum_congr rfl fun j _ => hR j]
  exact LibSums.sum_fin_le 500 512 (by decide) f fun i hi _ => dif_neg (by omega)

/-- A sum with one term left out is the whole sum less that term, when the term is a real number. -/
theorem sum_but_one (D : Fin 500 → EReal) (kk : Fin 500) (d : ℝ) (hd : D kk = (d : EReal)) :
    (∑ j : Fin 500, if j ≠ kk then D j else 0) = (∑ j : Fin 500, D j) - D kk := by
  rw [← Finset.add_sum_erase Finset.univ D (Finset.mem_univ kk), hd, EReal.add_sub_cancel_left, ← Finset.sum_filter,
    Finset.filter_ne']

/-- Below 500 the distance to a column of the padded table is the distance to the centre of that number. -/
theorem dist_pad {R : ℕ} (x : Fin R → Fin 256 → EReal) (C : Fin 500 → Fin 256 → EReal) (cp : Fin 512 → Fin 256 → EReal)
    (c2 : Fin 512 → EReal) (hcp : ∀ (j : Fin 512) (hj : j.val < 500) (d : Fin 256), cp j d = C ⟨j.val, hj⟩ d)
    (hc2 : ∀ (j : Fin 512) (hj : j.val < 500), c2 j = sq C ⟨j.val, hj⟩) (r : Fin R) (j : Fin 512) (hj : j.val < 500) :
    dist x cp c2 r j = dist x C (sq C) r ⟨j.val, hj⟩ := by
  unfold Cert.Spec.dist Cert.Spec.dot
  rw [hc2 j hj]
  simp only [hcp j hj]

/-- One row of one tile: the masked sum of the first program is the second program's sum less the own distance. -/
theorem row_others (X : Fin 131072 → Fin 256 → EReal) (C : Fin 500 → Fin 256 → EReal) (k : Fin 131072 → Fin 500)
    (cp : Fin 512 → Fin 256 → EReal) (c2 : Fin 512 → EReal) (lab : Fin 131072 → BitVec 32)
    (hX : ∀ i d, X i d ≠ ⊥ ∧ X i d ≠ ⊤) (hC : ∀ j d, C j d ≠ ⊥ ∧ C j d ≠ ⊤)
    (hcp : ∀ (j : Fin 512) (hj : j.val < 500) (d : Fin 256), cp j d = C ⟨j.val, hj⟩ d)
    (hc2 : ∀ (j : Fin 512) (hj : j.val < 500), c2 j = sq C ⟨j.val, hj⟩)
    (hlab : ∀ i, lab i = BitVec.ofNat 32 (k i).val) (t : Fin 64) (r : Fin 2048) :
    othersMasked (fun r => X (rowAt t r)) cp c2 (fun r => lab (rowAt t r)) r = othersBySubtraction X C k (rowAt t r) := by
  obtain ⟨d, hd⟩ := dist_real X C hX hC (rowAt t r) (k (rowAt t r))
  unfold othersMasked othersBySubtraction
  rw [← sum_but_one (fun j => dist X C (sq C) (rowAt t r) j) (k (rowAt t r)) d hd]
  exact mask_sum (fun j => dist X C (sq C) (rowAt t r) j) _ _ (k (rowAt t r)) (hlab (rowAt t r))
    fun j hj => dist_pad (fun r => X (rowAt t r)) C cp c2 hcp hc2 r j hj

/-! ## Tiles -/

/-- Sixty-four tiles of 2048 consecutive rows are the 131072 rows. -/
theorem sum_tiles {M : Type*} [AddCommMonoid M] (f : Fin 131072 → M) :
    ∑ t : Fin 64, ∑ r : Fin 2048, f (rowAt t r) = ∑ i : Fin 131072, f i := by
  let g : ℕ → M := fun n => if h : n < 131072 then f ⟨n, h⟩ else 0
  have hg : ∀ i : Fin 131072, g i.val = f i := fun i => dif_pos i.isLt
  have h := LibSums.sum_blocks 64 2048 g
  have hL : ∀ (t : Fin 64) (r : Fin 2048), g (t.val * 2048 + r.val) = f (rowAt t r) := fun t r => hg (rowAt t r)
  rw [Finset.sum_congr rfl fun t _ => Finset.sum_congr rfl fun r _ => hL t r] at h
  rw [h]
  show ∑ i : Fin 131072, g i.val = _
  exact Finset.sum_congr rfl fun i _ => hg i

/-! ## The loss -/

/-- The loss computed tile by tile over a padded table with the own column masked out is the loss computed all at once
    with the own distance subtracted. -/
theorem loss_eq (X : Fin 131072 → Fin 256 → EReal) (C : Fin 500 → Fin 256 → EReal) (k : Fin 131072 → Fin 500)
    (cp : Fin 512 → Fin 256 → EReal) (c2 : Fin 512 → EReal) (lab : Fin 131072 → BitVec 32)
    (hX : ∀ i d, X i d ≠ ⊥ ∧ X i d ≠ ⊤) (hC : ∀ j d, C j d ≠ ⊥ ∧ C j d ≠ ⊤)
    (hcp : ∀ (j : Fin 512) (hj : j.val < 500) (d : Fin 256), cp j d = C ⟨j.val, hj⟩ d)
    (hc2 : ∀ (j : Fin 512) (hj : j.val < 500), c2 j = sq C ⟨j.val, hj⟩)
    (hlab : ∀ i, lab i = BitVec.ofNat 32 (k i).val) :
    lossOf
        (∑ t : Fin 64, tileRatio (fun r => X (rowAt t r)) (fun r => C (k (rowAt t r))) cp c2 (fun r => lab (rowAt t r)))
        (∑ t : Fin 64, tileOwn (fun r => X (rowAt t r)) (fun r => C (k (rowAt t r))))
      = lossBySubtraction X C k := by
  unfold lossBySubtraction
  refine congrArg₂ lossOf ?_ ?_
  · rw [← sum_tiles (fun i => ratioBySubtraction X C k i)]
    refine Finset.sum_congr rfl fun t _ => ?_
    unfold tileRatio
    refine Finset.sum_congr rfl fun r _ => ?_
    unfold ratioBySubtraction
    rw [row_others X C k cp c2 lab hX hC hcp hc2 hlab t r]
    rfl
  · rw [← sum_tiles (fun i => own X (fun i => C (k i)) i)]
    rfl

end Cert.Algebra

end
-- ==== Proof.KFinal.lean ====
/-
  The first program's result as the loss with the own distance subtracted.

  What a grid point writes into its tile of the two output arrays is the body's stored value of the point's five input
  blocks; the body's stored values are the tile's sum of own distances and the tile's sum of ratios of those blocks'
  rows; the blocks' rows are rows 2048·t + r of the features, of the gathered own centres (row i of which is the centre
  of sample i's class) and of the labels, against the padded table of centres and its squared lengths, which below row
  500 are the centres and their squared lengths. So the two output arrays hold, in slot t, the tile sums of the loss
  computed tile by tile over the padded table with the own column masked out; the lines after the launch form the loss
  from the 64 tile sums; and on real inputs with labels that are class numbers that loss is the loss computed all at
  once with the own distance subtracted.
-/
import proofs.«404542_j59717225283876_2_alg».proof.Proof.KValue
import proofs.«404542_j59717225283876_2_alg».proof.Proof.KBody
import proofs.«404542_j59717225283876_2_alg».proof.Proof.KBlocks
import proofs.«404542_j59717225283876_2_alg».proof.Proof.KPrefix
import proofs.«404542_j59717225283876_2_alg».proof.Proof.KTail
import proofs.«404542_j59717225283876_2_alg».proof.Proof.Algebra
import proofs.«404542_j59717225283876_2_alg».proof.Proof.Spec

set_option maxRecDepth 16384

noncomputable section

namespace Cert.KernelIdeal.KFin

open Idealize.ShloMosaic Idealize.ShloMosaic.TcCoe Idealize.SL.Sem Idealize.ShloMosaic.ValueIdx
open Cert.KernelIdeal Cert.KernelIdeal.Gen
open Cert.KernelIdeal.KVal Cert.KernelIdeal.KBlk Cert.KernelIdeal.KPre Cert.KernelIdeal.Body Cert.KernelIdeal.KTail
open Cert.Spec Cert.Algebra

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The features, the centres, the padded table, its squared lengths and the label words, as rows. -/
abbrev featRows : Fin 131072 → Fin 256 → EReal := rows (feat m c)
abbrev centreRows : Fin 500 → Fin 256 → EReal := rows (cent m c)
abbrev tableRows : Fin 512 → Fin 256 → EReal := rows (V m c main_v3)
abbrev tableLengths : Fin 512 → EReal := fun j => V m c main_v7 (ix2 (0 : Fin 1) j)
abbrev labelWord : Fin 131072 → BitVec 32 := fun i => labs m c (ix1 i)

variable (k : Fin 131072 → Fin 500)

/-- Point `t`'s tile of the first output array holds the tile's sum of own distances. -/
theorem ownTile_eq (hk : ∀ i : Fin 131072, labs m c (ix1 i) = BitVec.ofNat 32 (k i).val) (t : Fin cfg0.N) (y : S1x8x128.Idx) :
    ownTile m c t y = tileOwn (fun r => featRows m c (rowOf t r)) (fun r => centreRows m c (k (rowOf t r))) := by
  unfold ownTile out0_5
  rw [View.canon_unit_zero hz3]
  simp only [View.ld_unit_zero (S := S2048x256) hz2]
  refine (pay_own (featBlk m c t) (ownBlk m c t) y).trans ?_
  have e0 : rows (featBlk m c t) = fun r => featRows m c (rowOf t r) := by
    funext r d
    exact (featBlk_apply m c t r d).trans (congrFun (V_main_arg0 m c) _)
  have e3 : rows (ownBlk m c t) = fun r => centreRows m c (k (rowOf t r)) := by
    funext r d
    exact (ownBlk_apply m c t r d).trans (v14_apply m c k hk (rowOf t r) d)
  rw [e0, e3]

/-- Point `t`'s tile of the second output array holds the tile's sum of ratios. -/
theorem ratioTile_eq (hk : ∀ i : Fin 131072, labs m c (ix1 i) = BitVec.ofNat 32 (k i).val) (t : Fin cfg0.N) (y : S1x8x128.Idx) :
    ratioTile m c t y
      = tileRatio (fun r => featRows m c (rowOf t r)) (fun r => centreRows m c (k (rowOf t r))) (tableRows m c) (tableLengths m c)
          (fun r => labelWord m c (rowOf t r)) := by
  unfold ratioTile out0_6
  rw [View.canon_unit_zero hz3]
  simp only [View.ld_unit_zero (S := S2048x256) hz2, View.ld_unit_zero (S := S512x256) hz2,
    View.ld_unit_zero (S := S1x512) hz2, View.ld_unit_zero (S := S2048x1) hz2]
  refine (pay_ratio (featBlk m c t) (ownBlk m c t) (tableBlk m c t) (lengthsBlk m c t) (labelBlk m c t) y).trans ?_
  have e0 : rows (featBlk m c t) = fun r => featRows m c (rowOf t r) := by
    funext r d
    exact (featBlk_apply m c t r d).trans (congrFun (V_main_arg0 m c) _)
  have e3 : rows (ownBlk m c t) = fun r => centreRows m c (k (rowOf t r)) := by
    funext r d
    exact (ownBlk_apply m c t r d).trans (v14_apply m c k hk (rowOf t r) d)
  have e1 : rows (tableBlk m c t) = tableRows m c := by
    funext j d
    exact tableBlk_apply m c t j d
  have e2 : (fun j => lengthsBlk m c t (ix2 (0 : Fin 1) j)) = tableLengths m c := by
    funext j
    exact lengthsBlk_apply m c t j
  have e4 : (fun r => labelBlk m c t (ix2 r (0 : Fin 1))) = fun r => labelWord m c (rowOf t r) := by
    funext r
    exact (labelBlk_apply m c t r).trans (v15_apply m c (rowOf t r))
  rw [e0, e3, e1, e2, e4]

/-- The grid point of slot `t`. -/
theorem rowOf_pointOf (t : Fin 64) (r : Fin 2048) :
    rowOf (pointOf (ix3 (n0 := 64) (n1 := 8) (n2 := 128) t 0 0)) r = rowAt t r := Fin.ext rfl

/-- Slot `t` of the first output array, at its first entry, is point `t`'s tile at its first entry. -/
theorem ownArr_slot (t : Fin 64) :
    ownArr m c (ix3 (n0 := 64) (n1 := 8) (n2 := 128) t 0 0)
      = ownTile m c (pointOf (ix3 (n0 := 64) (n1 := 8) (n2 := 128) t 0 0)) (ix3 (n0 := 1) (n1 := 8) (n2 := 128) 0 0 0) := rfl

/-- The same for the second output array. -/
theorem ratioArr_slot (t : Fin 64) :
    ratioArr m c (ix3 (n0 := 64) (n1 := 8) (n2 := 128) t 0 0)
      = ratioTile m c (pointOf (ix3 (n0 := 64) (n1 := 8) (n2 := 128) t 0 0)) (ix3 (n0 := 1) (n1 := 8) (n2 := 128) 0 0 0) := rfl

set_option maxHeartbeats 2000000 in
/-- The first program's result: the loss computed tile by tile. -/
theorem tail_eq (hk : ∀ i : Fin 131072, labs m c (ix1 i) = BitVec.ofNat 32 (k i).val) :
    tail (ownArr m c) (ratioArr m c) = fun _ =>
      lossOf
        (∑ t : Fin 64, tileRatio (fun r => featRows m c (rowAt t r)) (fun r => centreRows m c (k (rowAt t r))) (tableRows m c) (tableLengths m c)
          (fun r => labelWord m c (rowAt t r)))
        (∑ t : Fin 64, tileOwn (fun r => featRows m c (rowAt t r)) (fun r => centreRows m c (k (rowAt t r)))) := by
  rw [tail_apply]
  have h6 : ∀ t : Fin 64, ratioArr m c (ix3 (n0 := 64) (n1 := 8) (n2 := 128) t 0 0)
      = tileRatio (fun r => featRows m c (rowAt t r)) (fun r => centreRows m c (k (rowAt t r))) (tableRows m c) (tableLengths m c)
          (fun r => labelWord m c (rowAt t r)) := fun t => by
    rw [ratioArr_slot, ratioTile_eq m c k hk]
    simp only [rowOf_pointOf]
  have h5 : ∀ t : Fin 64, ownArr m c (ix3 (n0 := 64) (n1 := 8) (n2 := 128) t 0 0)
      = tileOwn (fun r => featRows m c (rowAt t r)) (fun r => centreRows m c (k (rowAt t r))) := fun t => by
    rw [ownArr_slot, ownTile_eq m c k hk]
    simp only [rowOf_pointOf]
  simp only [h5, h6]

/-- On real inputs the first program's result is the loss with the own distance subtracted. -/
theorem tail_loss (hk : ∀ i : Fin 131072, labs m c (ix1 i) = BitVec.ofNat 32 (k i).val) (hX : ∀ i, feat m c i ≠ ⊥ ∧ feat m c i ≠ ⊤) (hC : ∀ i, cent m c i ≠ ⊥ ∧ cent m c i ≠ ⊤) :
    tail (ownArr m c) (ratioArr m c) = fun _ => lossBySubtraction (featRows m c) (centreRows m c) k := by
  rw [tail_eq m c k hk]
  funext _
  exact loss_eq (featRows m c) (centreRows m c) k (tableRows m c) (tableLengths m c) (labelWord m c)
    (fun i d => hX _) (fun j d => hC _)
    (fun j hj d => v3_apply m c j hj d)
    (fun j hj => v7_apply m c j hj)
    hk

end Cert.KernelIdeal.KFin

end
-- ==== Proof.lean ====
/-
  The certificate: a loss over 131072 samples of 256 features and 500 class centres, computed by a kernel launched over
  64 tiles of 2048 samples against its plain reference.

  Both programs compute, for every sample, the distance to the centre of its own class (directly) and the distances to all
  centres (through |x|² + |c|² − 2⟨x, c⟩, floored and square-rooted), and form the mean over the samples of
  own / (mean of the 499 others) plus a tenth of the mean own distance. They differ in how the others are added up — the
  kernel adds the columns of a table padded to 512 rows, skipping the padding and the column whose number equals the
  label; the reference adds all 500 and subtracts the own one — and in how the samples are added up — 64 tile sums
  against one sum. On the extended reals the first difference vanishes when the own distance is a real number and the
  label is the number of a class, the second always. The precondition gives both: every float input is finite, and
  every label lies in [0, 500).

  The frames of the two kernel programs are the generated frame certificates; the reference's frame is its run with the
  result dropped; the idealization rewrote nothing, so `preserves` is trivial; `algebraic` pairs the kernel's run, read
  back to the loss with the own distance subtracted, with the reference's run, read back to the same function of
  arguments that agree.
-/
import proofs.«404542_j59717225283876_2_alg».proof.Defs
import proofs.«404542_j59717225283876_2_alg».proof.Proof.Gen.Kernel
import proofs.«404542_j59717225283876_2_alg».proof.Proof.Gen.Kernel.Skeleton
import proofs.«404542_j59717225283876_2_alg».proof.Proof.Gen.Kernel.Launch
import proofs.«404542_j59717225283876_2_alg».proof.Proof.Gen.Kernel.Points
import proofs.«404542_j59717225283876_2_alg».proof.Proof.Gen.Kernel.Frame
import proofs.«404542_j59717225283876_2_alg».proof.Proof.Gen.KernelIdeal
import proofs.«404542_j59717225283876_2_alg».proof.Proof.Gen.KernelIdeal.Skeleton
import proofs.«404542_j59717225283876_2_alg».proof.Proof.Gen.KernelIdeal.Launch
import proofs.«404542_j59717225283876_2_alg».proof.Proof.Gen.KernelIdeal.Points
import proofs.«404542_j59717225283876_2_alg».proof.Proof.Gen.KernelIdeal.Frame
import proofs.«404542_j59717225283876_2_alg».proof.Proof.Gen.ReferenceIdeal
import proofs.«404542_j59717225283876_2_alg».proof.Proof.Gen.Pre_finite_inputs
import proofs.«404542_j59717225283876_2_alg».proof.Proof.RefRun
import proofs.«404542_j59717225283876_2_alg».proof.Proof.RefRead
import proofs.«404542_j59717225283876_2_alg».proof.Proof.RefValue
import proofs.«404542_j59717225283876_2_alg».proof.Proof.PreDecode
import proofs.«404542_j59717225283876_2_alg».proof.Proof.KFinal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the loss with the own distance subtracted, of the features, the centres and the class numbers
    the labels name. -/
theorem algebraic : Cert.algebraic_KernelIdeal_ReferenceIdeal := by
  intro m ρ m' ρ' hpre hagree
  refine ⟨fun c _ => Cert.Spec.lossBySubtraction
      (Cert.Spec.rows (m ((c.tc : Thread Cert.KernelIdeal.nD Cert.KernelIdeal.τ).loc Cert.KernelIdeal.main_arg0)))
      (Cert.Spec.rows (m ((c.tc : Thread Cert.KernelIdeal.nD Cert.KernelIdeal.τ).loc Cert.KernelIdeal.main_arg2)))
      (Cert.PreDecode.classOf (m ((c.tc : Thread Cert.KernelIdeal.nD Cert.KernelIdeal.τ).loc Cert.KernelIdeal.main_arg1))), ?_, ?_⟩
  · refine (θ_run Cert.KernelIdeal.defs _ _).mono (fun r h c => ?_) (Cert.KernelIdeal.KVal.run_tail m ρ)
    obtain ⟨hX, hC, hL⟩ := Cert.PreDecode.decode _ _ _ (hpre c)
    exact ⟨(h c).1.trans (Cert.KernelIdeal.KFin.tail_loss m c _
        (fun i => Cert.PreDecode.classOf_spec _ i (hL (ix1 i))) hX hC), (h c).2⟩
  · refine (θ_run Cert.ReferenceIdeal.defs _ _).mono (fun r h c => ?_)
      (Cert.ReferenceIdeal.ValueP.run (F := Ideal) m' ρ')
    obtain ⟨hX, hC, hL⟩ := Cert.PreDecode.decode _ _ _ (hpre c)
    refine ⟨(h c).1.trans ?_, (h c).2⟩
    rw [Cert.ReferenceIdeal.ReadP.val_main_v39_eq, (hagree c).1, (hagree c).2.1, (hagree c).2.2]
    exact Cert.ReferenceIdeal.RefValue.result_eq _ _ _ _
      (fun i => Cert.PreDecode.classOf_spec _ i (hL (ix1 i)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
